-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S10000x256 : Shape := ⟨2, ![10000, 256]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S320000 : S_.BroadcastsInDim S320000 (![] : Fin 0 → Fin S320000.rank)
  reducesTo_S320000_S_d0 : S320000.ReducesTo [0] S_

variable [Facts]

def fn_part1 {F : FTy → Type} [FloatOps F] (main_arg0 : IVec S320000 32) (main_arg1 : IVec S320000 32) (main_v13 : IVec S_ 1) (main_v15 : IVec S320000 1) (main_c_5 : IVec S_ 32) : IVec S_ 1 :=
  let main_v16 : IVec S320000 32 := broadcastInDim S320000 ![] bcast_S_S320000 main_c_5
  let main_v17 : IVec S320000 1 := cmpi .slt main_arg0 main_v16
  let main_v18 : IVec S320000 1 := andi main_v15 main_v17
  let main_c_6 : IVec S_ 1 := constantI S_ 1 1#1
  let main_v19 : IVec S_ 1 := (fun x v => Host.reduce IntOp.andi x v reducesTo_S320000_S_d0 h_S_) main_v18 main_c_6
  let main_v20 : IVec S_ 1 := andi main_v13 main_v19
  let main_c_7 : IVec S_ 32 := constantI S_ 32 0#32
  let main_v21 : IVec S320000 32 := broadcastInDim S320000 ![] bcast_S_S320000 main_c_7
  let main_v22 : IVec S320000 1 := cmpi .sge main_arg1 main_v21
  let main_c_8 : IVec S_ 32 := constantI S_ 32 10000#32
  let main_v23 : IVec S320000 32 := broadcastInDim S320000 ![] bcast_S_S320000 main_c_8
  let main_v24 : IVec S320000 1 := cmpi .slt main_arg1 main_v23
  let main_v25 : IVec S320000 1 := andi main_v22 main_v24
  let main_c_9 : IVec S_ 1 := constantI S_ 1 1#1
  let main_v26 : IVec S_ 1 := (fun x v => Host.reduce IntOp.andi x v reducesTo_S320000_S_d0 h_S_) main_v25 main_c_9
  let main_v27 : IVec S_ 1 := andi main_v20 main_v26
  main_v27

def fn {F : FTy → Type} [FloatOps F] (main_arg0 : IVec S320000 32) (main_arg1 : IVec S320000 32) (main_arg2 : FVec F S10000x256 .f32) (main_arg3 : FVec F S256x256 .f32) (main_arg4 : FVec F S256 .f32) : IVec S_ 1 :=
  let main_v0 : FVec F S10000x256 .f32 := Host.absf main_arg2
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_c_4 : IVec S_ 32 := constantI S_ 32 0#32
  let main_v14 : IVec S320000 32 := broadcastInDim S320000 ![] bcast_S_S320000 main_c_4
  let main_v15 : IVec S320000 1 := cmpi .sge main_arg0 main_v14
  let main_c_5 : IVec S_ 32 := constantI S_ 32 10000#32
  fn_part1 (F := F) main_arg0 main_arg1 main_v13 main_v15 main_c_5
-- ==== Kernel.lean ====
abbrev S320000 : Shape := ⟨1, ![320000]⟩
abbrev S10000x256 : Shape := ⟨2, ![10000, 256]⟩
abbrev S256x256 : Shape := ⟨2, ![256, 256]⟩
abbrev S256 : Shape := ⟨1, ![256]⟩
abbrev S_ : Shape := ⟨0, ![]⟩
abbrev S10000 : Shape := ⟨1, ![10000]⟩
abbrev S320000x1 : Shape := ⟨2, ![320000, 1]⟩
abbrev S10240 : Shape := ⟨1, ![10240]⟩
abbrev S10240x1 : Shape := ⟨2, ![10240, 1]⟩
abbrev S10240x256 : Shape := ⟨2, ![10240, 256]⟩
abbrev S330000 : Shape := ⟨1, ![330000]⟩
abbrev S10240x10240 : Shape := ⟨2, ![10240, 10240]⟩
abbrev S330000x1 : Shape := ⟨2, ![330000, 1]⟩
abbrev S330000x2 : Shape := ⟨2, ![330000, 2]⟩
abbrev S1x256 : Shape := ⟨2, ![1, 256]⟩
abbrev S1024x256 : Shape := ⟨2, ![1024, 256]⟩
abbrev S1024x2048 : Shape := ⟨2, ![1024, 2048]⟩
abbrev S2048x256 : Shape := ⟨2, ![2048, 256]⟩

abbrev nBuf : Space → Nat
  | .hbm => 53
  | .vmem => 17
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S10000x256, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S320000, .f32⟩
  | .hbm, ⟨7, _⟩ => ⟨S_, .f32⟩
  | .hbm, ⟨8, _⟩ => ⟨S10000, .f32⟩
  | .hbm, ⟨9, _⟩ => ⟨S320000x1, .i32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000, .f32⟩
  | .hbm, ⟨15, _⟩ => ⟨S_, .f32⟩
  | .hbm, ⟨16, _⟩ => ⟨S_, .f32⟩
  | .hbm, ⟨17, _⟩ => ⟨S10240, .f32⟩
  | .hbm, ⟨18, _⟩ => ⟨S10240x1, .f32⟩
  | .hbm, ⟨19, _⟩ => ⟨S10240x256, .f32⟩
  | .hbm, ⟨20, _⟩ => ⟨S_, .i32⟩
  | .hbm, ⟨21, _⟩ => ⟨S_, .f32⟩
  | .hbm, ⟨22, _⟩ => ⟨S10240x256, .f32⟩
  | .hbm, ⟨23, _⟩ => ⟨S10000, .i32⟩
  | .hbm, ⟨24, _⟩ => ⟨S330000, .i32⟩
  | .hbm, ⟨25, _⟩ => ⟨S330000, .i32⟩
  | .hbm, ⟨26, _⟩ => ⟨S_, .i32⟩
  | .hbm, ⟨27, _⟩ => ⟨S330000, .i32⟩
  | .hbm, ⟨28, _⟩ => ⟨S_, .i32⟩
  | .hbm, ⟨29, _⟩ => ⟨S10240x10240, .i32⟩
  | .hbm, ⟨30, _⟩ => ⟨S_, .i32⟩
  | .hbm, ⟨31, _⟩ => ⟨S330000, .i32⟩
  | .hbm, ⟨32, _⟩ => ⟨S330000, .i1⟩
  | .hbm, ⟨33, _⟩ => ⟨S_, .i32⟩
  | .hbm, ⟨34, _⟩ => ⟨S330000, .i32⟩
  | .hbm, ⟨35, _⟩ => ⟨S330000, .i32⟩
  | .hbm, ⟨36, _⟩ => ⟨S330000, .i32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000x1, .i32⟩
  | .hbm, ⟨46, _⟩ => ⟨S330000x2, .i32⟩
  | .hbm, ⟨47, _⟩ => ⟨S10240x10240, .i32⟩
  | .hbm, ⟨48, _⟩ => ⟨S10240x10240, .bf16⟩
  | .hbm, ⟨49, _⟩ => ⟨S1x256, .f32⟩
  | .hbm, ⟨50, _⟩ => ⟨S10240x256, .bf16⟩
  | .hbm, ⟨51, _⟩ => ⟨S10240x256, .f32⟩
  | .hbm, ⟨52, _⟩ => ⟨S10000x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x2048, .bf16⟩
  | .local _ .vmem, ⟨9, _⟩ => ⟨S1024x2048, .bf16⟩
  | .local _ .vmem, ⟨10, _⟩ => ⟨S2048x256, .bf16⟩
  | .local _ .vmem, ⟨11, _⟩ => ⟨S2048x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_7 : Ref sig .tc := ⟨.hbm, 37, rfl⟩
abbrev main_v21 : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![10, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  pads_S10000_S10240_02400 : S10000.Pads (![0] : Fin 1 → Nat) ![240] ![0] S10240
  h_S_ : 0 < S_.numel
  bcast_S10240_S10240x1_0 : S10240.BroadcastsInDim S10240x1 (![0] : Fin 1 → Fin S10240x1.rank)
  bcast_S10240x1_S10240x256_0_1 : S10240x1.BroadcastsInDim S10240x256 (![0, 1] : Fin 2 → Fin S10240x256.rank)
  pads_S10000x256_S10240x256_02400_000 : S10000x256.Pads (![0, 0] : Fin 2 → Nat) ![240, 0] ![0, 0] S10240x256
  concatenates_S320000_S10000_S330000_d0 : Shape.Concatenates [S320000, S10000] S330000 0
  bcast_S_S330000 : S_.BroadcastsInDim S330000 (![] : Fin 0 → Fin S330000.rank)
  bcast_S_S10240x10240 : S_.BroadcastsInDim S10240x10240 (![] : Fin 0 → Fin S10240x10240.rank)
  bcast_S330000_S330000x1_0 : S330000.BroadcastsInDim S330000x1 (![0] : Fin 1 → Fin S330000x1.rank)
  concatenates_S330000x1_S330000x1_S330000x2_d1 : Shape.Concatenates [S330000x1, S330000x1] S330000x2 1
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  slices_S10240x256_S10000x256_0_0 : S10240x256.Slices ![0, 0] S10000x256
  scatter_S10000_S320000x1_S320000_n_0_0_1_wf : ScatterDims.WF S10000 S320000x1 S320000 [] [0] [0] 1
  scatter_S10240x10240_S330000x2_S330000_n_01_01_1_wf : ScatterDims.WF S10240x10240 S330000x2 S330000 [] [0, 1] [0, 1] 1
  dot_S1024x256_S256x256_S1024x256_1_0_0_1_n_n_wf : DotDims.WF S1024x256 S256x256 S1024x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S10240x256.size a
  hwx0_0 : ∀ i : grid0.Coords, EltTy.bits .f32 = 32 ∨ (Rect.block (s := S10240x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S10240x256.size a
  hwx0_3 : ∀ i : grid0.Coords, EltTy.bits .f32 = 32 ∨ (Rect.block (s := S10240x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S10240x256.size a
  hwx0_4 : ∀ i : grid0.Coords, EltTy.bits .bf16 = 32 ∨ (Rect.block (s := S10240x256) S1024x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S10240x256.size a
  hwx1_1 : ∀ i : grid1.Coords, EltTy.bits .bf16 = 32 ∨ (Rect.block (s := S10240x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S10240x256.size a
  hwx1_2 : ∀ i : grid1.Coords, EltTy.bits .f32 = 32 ∨ (Rect.block (s := S10240x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S10240x256.size a
  hwx1_3 : ∀ i : grid1.Coords, EltTy.bits .f32 = 32 ∨ (Rect.block (s := S10240x256) S1024x256.size (cc1_transform_3 i) (hinb1_3 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v10) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S320000 : Shape := ⟨1, ![320000]⟩
abbrev S10000x256 : Shape := ⟨2, ![10000, 256]⟩
abbrev S256x256 : Shape := ⟨2, ![256, 256]⟩
abbrev S256 : Shape := ⟨1, ![256]⟩
abbrev S_ : Shape := ⟨0, ![]⟩
abbrev S10000 : Shape := ⟨1, ![10000]⟩
abbrev S320000x1 : Shape := ⟨2, ![320000, 1]⟩
abbrev S1x256 : Shape := ⟨2, ![1, 256]⟩
abbrev S10000x1 : Shape := ⟨2, ![10000, 1]⟩
abbrev S320000x256 : Shape := ⟨2, ![320000, 256]⟩

abbrev nBuf : Space → Nat
  | .hbm => 39
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S10000x256, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S320000, .f32⟩
  | .hbm, ⟨7, _⟩ => ⟨S_, .f32⟩
  | .hbm, ⟨8, _⟩ => ⟨S10000, .f32⟩
  | .hbm, ⟨9, _⟩ => ⟨S320000x1, .i32⟩
  | .hbm, ⟨10, _⟩ => ⟨S10000, .f32⟩
  | .hbm, ⟨11, _⟩ => ⟨S_, .f32⟩
  | .hbm, ⟨12, _⟩ => ⟨S10000, .f32⟩
  | .hbm, ⟨13, _⟩ => ⟨S10000, .f32⟩
  | .hbm, ⟨14, _⟩ => ⟨S10000, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | .hbm, ⟨19, _⟩ => ⟨S10000x1, .f32⟩
  | .hbm, ⟨20, _⟩ => ⟨S10000x256, .f32⟩
  | .hbm, ⟨21, _⟩ => ⟨S10000x256, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x256, .f32⟩
  | .hbm, ⟨31, _⟩ => ⟨S_, .f32⟩
  | .hbm, ⟨32, _⟩ => ⟨S10000x256, .f32⟩
  | .hbm, ⟨33, _⟩ => ⟨S320000x1, .i32⟩
  | .hbm, ⟨34, _⟩ => ⟨S10000x256, .f32⟩
  | .hbm, ⟨35, _⟩ => ⟨S10000x256, .f32⟩
  | .hbm, ⟨36, _⟩ => ⟨S10000x1, .f32⟩
  | .hbm, ⟨37, _⟩ => ⟨S10000x256, .f32⟩
  | .hbm, ⟨38, _⟩ => ⟨S10000x256, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  scatter_S10000_S320000x1_S320000_n_0_0_1_wf : ScatterDims.WF S10000 S320000x1 S320000 [] [0] [0] 1
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.KReg0.lean ====
/-
  Region 0 of the kernel program: the fused linear layer and right scaling, one row block of 1024 nodes per grid
  point. At each point the body reads a block of the padded features, the whole weight matrix, the bias row and a
  block of the broadcast inverse square-root degrees, and stores (x·W + b) ⊙ dinv, narrowed to bf16, over the whole
  output block. Stated at any float instance and at any contents `V` of the buffers the region is entered with:
  the blocks each window holds, what the one store leaves in the output buffer, the body's triple, the proof data
  and the body obligation.
-/
import proofs.«430833_j68839735821095_2_alg».proof.Proof.Gen.Kernel.Launch
import proofs.«430833_j68839735821095_2_alg».proof.Proof.Gen.Kernel.Skeleton
import proofs.«430833_j68839735821095_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not (where it
    does not, the block index has not moved): the feature rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the weight matrix (one block, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the bias row (one block, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the rows of the broadcast scaling. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rRows : Rect S1024x256 := Rect.unit (s := S1024x256) ![0, 0] S1024x256.size inb_S1024x256_S1024x256_0_0
abbrev rWeight : Rect S256x256 := Rect.unit (s := S256x256) ![0, 0] S256x256.size inb_S256x256_S256x256_0_0
abbrev rBias : Rect S1x256 := Rect.unit (s := S1x256) ![0, 0] S1x256.size inb_S1x256_S1x256_0_0

/-- The output buffer after the body: its one store, of the scaled linear layer of the four input blocks. -/
def out0 (x0 : Vec F S1024x256 .f32) (x1 : Vec F S256x256 .f32) (x2 : Vec F S1x256 .f32) (x3 : Vec F S1024x256 .f32) : Vec F S1024x256 .bf16 :=
  View.canon [⟨rRows, k0_pay1 (View.ld x0 rRows) (View.ld x1 rWeight) (View.ld x2 rBias) (View.ld x3 rRows)⟩]

/-- The store covers the buffer. -/
theorem cover0 (p0 : Vec F S1024x256 .bf16) (y : S1024x256.Idx) :
    ∃ pc ∈ ([⟨rRows, p0⟩] : List (View.Piece (Elt F) S1024x256 .bf16)), y ∈ pc.1.set :=
  View.cover_of_tiled [⟨rRows, p0⟩] S1024x256.size (by rfl) y

/-! ## The body's triple -/

set_option maxHeartbeats 2000000 in
/-- The body on whole staging memrefs, the inputs' at contents `x0 … x3` and the output's at anything, runs to the
    continuation holding the inputs' as they were and the output's at `out0` of them. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (arg5 : Memref sig .tc .vmem S1024x256 .bf16) (harg5 : arg5.IsWhole)
    (x0 : Vec F S1024x256 .f32) (x1 : Vec F S256x256 .f32) (x2 : Vec F S1x256 .f32) (x3 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__linear_scale_kernel i arg1 harg1 arg2 harg2 arg3 harg3 arg4 harg4 arg5 harg5) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-! ## The proof data -/

/-- The proof data of pipeline 0 on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KReg1.lean ====
/-
  Region 1 of the kernel program: the dense adjacency product. The grid is 10 row blocks of 1024 nodes by 5 column
  blocks of 2048; at each point the body adds the product of a 1024 × 2048 block of the adjacency counts with a
  2048 × 256 block of the scaled activations to an accumulator it keeps in a scratch buffer across the five points of
  a row block — zeroed at the first of them — and at the last of them stores the accumulator times the block of the
  normalisation into the output block, which the pipeline writes back only there. Stated at any float instance and
  at any contents `V` of the buffers the region is entered with: the blocks, the body's run in each of its three
  control cases (first, middle, last column block), what the accumulator and the output buffer hold after each
  point, the invariant that carries the accumulator, the proof data and the body obligation.
-/
import proofs.«430833_j68839735821095_2_alg».proof.Proof.Gen.Kernel.Launch
import proofs.«430833_j68839735821095_2_alg».proof.Proof.Gen.Kernel.Skeleton
import proofs.«430833_j68839735821095_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, over the grid -/

/-- The first branch (zero the accumulator): the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
/-- The second branch (store the output): the column-block coordinate is the last, 4. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column block the output window is idle and is not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last column block it is live. -/
theorem liveAt1_3 : ∀ t : Fin cfg1.N, cond1_1 (grid1.coords t) → cfg1.idle 3 (grid1.coords t) = false := by decide +kernel

/-! ## The memrefs the body is called with -/

abbrev VO1 : View sig .tc .vmem S1024x256 .f32 := (Memref.whole cc1_stg3_0 : Memref sig .tc .vmem S1024x256 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x256 .f32 := Memref.whole cc1_scratch0
abbrev VS1 : View sig .tc .vmem S1024x256 .f32 := scM1.view

/-- The scoped buffers that are no staging buffer of this region, with the accumulator's place held by `S`. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The region's plain invariant (every scoped buffer outside its staging at some contents, the generator register at
    some state) with the accumulator as a memref owned at some contents. -/
theorem PhiA1_eq (c : Dev nD) :
    (Pipeline.ΦA spec1 c : sProp 𝕄) = iprop(restWith c (iprop(∃ d, owns (c : Thread nD τ) scM1 fullShare d)) ∗ (∃ r, prngReg c r)) := by
  unfold Pipeline.ΦA restWith; rw [scopedRest1_eq]; simp only [scM1, owns_whole]; try rfl

/-! ## The body's run, case by case: the pieces each buffer ends with are what the run finds -/

set_option maxHeartbeats 4000000 in
/-- FIRST column block (the accumulator zeroed, then the product added; the output untouched). -/
noncomputable def kernelRun1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x2048 .bf16) (x1 : Vec F S2048x256 .bf16) (x2 : Vec F S1024x256 .f32) :
    Σ' (L3 : List (View.Piece (Elt F) S1024x256 .f32)), { LS : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_scale_kernel i arg2 harg2 arg3 harg3 arg4 harg4 arg5 harg5 arg6 harg6) K } := by
  refine ⟨[], ?_, fun xi3 E K => ?run⟩
  case run =>
    simp only [cc1__spmm_scale_kernel_eq_skeleton]; unfold cc1__spmm_scale_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- A MIDDLE column block (the product added to what the point before left; the output untouched). -/
noncomputable def kernelRun1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x2048 .bf16) (x1 : Vec F S2048x256 .bf16) (x2 : Vec F S1024x256 .f32) (xs : Vec F S1024x256 .f32) :
    Σ' (L3 : List (View.Piece (Elt F) S1024x256 .f32)), { LS : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_scale_kernel i arg2 harg2 arg3 harg3 arg4 harg4 arg5 harg5 arg6 harg6) K } := by
  refine ⟨[], ?_, fun xi3 E K => ?run⟩
  case run =>
    simp only [cc1__spmm_scale_kernel_eq_skeleton]; unfold cc1__spmm_scale_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- The LAST column block (the product added, then the accumulator times the normalisation stored into the output). -/
noncomputable def kernelRun1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x2048 .bf16) (x1 : Vec F S2048x256 .bf16) (x2 : Vec F S1024x256 .f32) (xs : Vec F S1024x256 .f32) :
    Σ' (L3 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__spmm_scale_kernel i arg2 harg2 arg3 harg3 arg4 harg4 arg5 harg5 arg6 harg6) K } := by
  refine ⟨?_, ?_, fun E K => ?run⟩
  case run =>
    simp only [cc1__spmm_scale_kernel_eq_skeleton]; unfold cc1__spmm_scale_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the output buffer and in the accumulator -/

/-- The first case stores nothing into the output: a placeholder nothing consults (the window is idle there). -/
def out1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i) (x0 : Vec F S1024x2048 .bf16) (x1 : Vec F S2048x256 .bf16) (x2 : Vec F S1024x256 .f32) : Vec F S1024x256 .f32 :=
  VO1.read (Elt F) (VO1.writes (Elt F) VO1.junk (kernelRun1_A c i arg2 harg2 arg3 harg3 arg4 harg4 arg5 harg5 arg6 harg6 hc0 hc1 x0 x1 x2).1)
theorem scover1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i) (x0 : Vec F S1024x2048 .bf16) (x1 : Vec F S2048x256 .bf16) (x2 : Vec F S1024x256 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y
/-- The accumulator after the first case: its pieces read back. -/
def sout1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i) (x0 : Vec F S1024x2048 .bf16) (x1 : Vec F S2048x256 .bf16) (x2 : Vec F S1024x256 .f32) : Vec F S1024x256 .f32 :=
  VS1.read (Elt F) (VS1.writes (Elt F) VS1.junk (kernelRun1_A c i arg2 harg2 arg3 harg3 arg4 harg4 arg5 harg5 arg6 harg6 hc0 hc1 x0 x1 x2).2.1)

def out1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i) (x0 : Vec F S1024x2048 .bf16) (x1 : Vec F S2048x256 .bf16) (x2 : Vec F S1024x256 .f32) (xs : Vec F S1024x256 .f32) : Vec F S1024x256 .f32 :=
  VO1.read (Elt F) (VO1.writes (Elt F) VO1.junk (kernelRun1_B c i arg2 harg2 arg3 harg3 arg4 harg4 arg5 harg5 arg6 harg6 hc0 hc1 x0 x1 x2 xs).1)
theorem scover1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i) (x0 : Vec F S1024x2048 .bf16) (x1 : Vec F S2048x256 .bf16) (x2 : Vec F S1024x256 .f32) (xs : Vec F S1024x256 .f32) (y : S1024x256.Idx) :
    ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S1024x256.size (by sl_kernel_rfl) y
/-- The accumulator after a middle case. -/
def sout1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i) (x0 : Vec F S1024x2048 .bf16) (x1 : Vec F S2048x256 .bf16) (x2 : Vec F S1024x256 .f32) (xs : Vec F S1024x256 .f32) : Vec F S1024x256 .f32 :=
  VS1.read (Elt F) (VS1.writes (Elt F) VS1.junk (kernelRun1_B c i arg2 harg2 arg3 harg3 arg4 harg4 arg5 harg5 arg6 harg6 hc0 hc1 x0 x1 x2 xs).2.1)

theorem cover1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) (y : S1024x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1024x256.size (by sl_kernel_rfl) y
/-- The output buffer after the last case: its one store read back. -/
def out1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) : Vec F S1024x256 .f32 :=
  VO1.read (Elt F) (VO1.writes (Elt F) VO1.junk (kernelRun1_C c i arg2 harg2 arg3 harg3 arg4 harg4 arg5 harg5 arg6 harg6 hc0 hc1 x0 x1 x2 xs).1)
theorem scover1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) (y : S1024x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1024x256.size (by sl_kernel_rfl) y
/-- The accumulator after the last case. -/
def sout1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) : Vec F S1024x256 .f32 :=
  VS1.read (Elt F) (VS1.writes (Elt F) VS1.junk (kernelRun1_C c i arg2 harg2 arg3 harg3 arg4 harg4 arg5 harg5 arg6 harg6 hc0 hc1 x0 x1 x2 xs).2.1)

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output buffer and the accumulator hold after each point -/

/-- By recursion on the point: (the output buffer, the accumulator) after point `n` — the first column block of a row
    block starts the accumulator afresh, the others add to what the point before left, the last also stores. -/
def outsAt1 (c : Dev nD) : (n : ℕ) → n < cfg1.N → Vec F S1024x256 .f32 × Vec F S1024x256 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 5 = 0 then
      if h1 : (n + 1) % 5 = 4 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 5 = 4 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point the region's plain invariant; after point `n` the accumulator at what that point left, the
    other scoped buffers at anything, the generator register at some state. -/
def PhiS1 (c : Dev nD) : (n : ℕ) → n ≤ cfg1.N → sProp 𝕄
  | 0, _ => Pipeline.ΦA spec1 c
  | n + 1, hn => iprop(restWith c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restWith c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(restWith c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the closed forms of the two conditions say which case the point is in; the invariant hands
    the body the accumulator at what the point before left (at anything before the first point) and takes it back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 50 := lt_of_lt_of_eq t.isLt (show cfg1.N = 50 from N_1)
  by_cases h0 : t.val % 5 = 0
  · have h1 : ¬t.val % 5 = 4 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    have hΦ : (dat1 V c).Φ t.castSucc ⊢ (iprop(restWith c (iprop(∃ d, owns (c : Thread nD τ) scM1 fullShare d)) ∗ (∃ r, prngReg c r)) : sProp 𝕄) := by
      by_cases hz : t.val = 0
      · rw [PhiS1_castSucc V c t, PhiS1_zero V c _ _ hz, PhiA1_eq]
      · rw [PhiS1_castSucc V c t, PhiS1_pos V c _ _ hz]; unfold restWith
        iintro ⟨⟨O0, O1, O2, O3, O4, O5, O6, O7, HS⟩, Hg⟩
        isplitr [Hg]
        swap; · iexact Hg
        isplitl [O0]; · iexact O0
        isplitl [O1]; · iexact O1
        isplitl [O2]; · iexact O2
        isplitl [O3]; · iexact O3
        isplitl [O4]; · iexact O4
        isplitl [O5]; · iexact O5
        isplitl [O6]; · iexact O6
        isplitl [O7]; · iexact O7
        iexists _; iexact HS
    iintro ⟨HΦ, Ho, ⟨%d0, H0⟩, ⟨%d1, H1⟩, ⟨%d2, H2⟩, ⟨%d3, H3⟩⟩
    ihave HΦ' := hΦ $$ HΦ
    unfold restWith
    icases HΦ' with ⟨⟨O0, O1, O2, O3, O4, O5, O6, O7, HS⟩, Hg⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitr [Ho H0 H1 H2 H3]
    swap
    · isplitl [Ho]; · iexact Ho
      isplitl [H0]; · iexact H0
      isplitl [H1]; · iexact H1
      isplitl [H2]; · iexact H2
      iexists _; iexact H3
    isplitr [Hg]
    swap; · iexact Hg
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    unfold owns; iexists _; isplitr
    swap; · iexact HS
    ipureintro; exact View.read_writes_of_cover _ _ _ _ _ (scover1_A c _ _ _ _ _ _ _ _ _ _ _ _ _ _ _ _)
  · have hz : t.val ≠ 0 := by omega
    have hΦ : (dat1 V c).Φ t.castSucc = iprop(restWith c (owns (c : Thread nD τ) scM1 fullShare ((outsAt1 V c (t.val - 1) (by omega)).2)) ∗ (∃ r, prngReg c r)) := by
      rw [PhiS1_castSucc V c t, PhiS1_pos V c _ _ hz]
    rw [hΦ]
    by_cases h1 : t.val % 5 = 4
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      unfold restWith
      iintro ⟨⟨⟨O0, O1, O2, O3, O4, O5, O6, O7, HS⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitr [Ho H0 H1 H2 H3]
      swap
      · isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
      isplitr [Hg]
      swap; · iexact Hg
      isplitl [O0]; · iexact O0
      isplitl [O1]; · iexact O1
      isplitl [O2]; · iexact O2
      isplitl [O3]; · iexact O3
      isplitl [O4]; · iexact O4
      isplitl [O5]; · iexact O5
      isplitl [O6]; · iexact O6
      isplitl [O7]; · iexact O7
      unfold owns; iexists _; isplitr
      swap; · iexact HS
      ipureintro; exact View.read_writes_of_cover _ _ _ _ _ (scover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      unfold restWith
      iintro ⟨⟨⟨O0, O1, O2, O3, O4, O5, O6, O7, HS⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitr [Ho H0 H1 H2 H3]
      swap
      · isplitl [Ho]; · iexact Ho
        isplitl [H0]; · iexact H0
        isplitl [H1]; · iexact H1
        isplitl [H2]; · iexact H2
        iexists _; iexact H3
      isplitr [Hg]
      swap; · iexact Hg
      isplitl [O0]; · iexact O0
      isplitl [O1]; · iexact O1
      isplitl [O2]; · iexact O2
      isplitl [O3]; · iexact O3
      isplitl [O4]; · iexact O4
      isplitl [O5]; · iexact O5
      isplitl [O6]; · iexact O6
      isplitl [O7]; · iexact O7
      unfold owns; iexists _; isplitr
      swap; · iexact HS
      ipureintro; exact View.read_writes_of_cover _ _ _ _ _ (scover1_B c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  have hN : cfg1.N = 50 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  unfold restWith
  iintro ⟨⟨O0, O1, O2, O3, O4, O5, O6, O7, HS⟩, Hg⟩
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  iexists _; iexact HS

end Cert.Kernel.Reg

end
-- ==== Proof.KRun.lean ====
/-
  The whole run of the kernel program: five stretches of host operations, the two kernel regions, the closing slice.
  Between two items a core holds every unscoped buffer at a known valuation: the launch contents, then each host
  stretch applied, then — after a region — its output array at what the region's write-backs leave and every other
  buffer as before. Here: those valuations, the proof data of both pipelines at their regions' entry contents, each
  region as a segment entered from and left at those thread states, and the run itself, whose every weakly fair
  execution terminates with every unscoped buffer at the last valuation. Stated at any float instance.
-/
import proofs.«430833_j68839735821095_2_alg».proof.Proof.KReg0
import proofs.«430833_j68839735821095_2_alg».proof.Proof.KReg1
import proofs.«430833_j68839735821095_2_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the regions' boundaries -/

/-- What region 0 is entered with: the launch contents after the five host stretches. -/
abbrev E0 : (c : Dev nD) → (b : Ref sig .tc) → Buf (Elt F) ((c : Thread nD τ).loc b) := fun c b => V5 m c b

/-- After region 0: its arrays at what the pipeline leaves (the inputs as entered, the output's write-backs folded),
    every other buffer as entered. -/
def W6 (c : Dev nD) : Valuation τ sig (Elt F) :=
  Pipeline.withArrays spec0 c (V5 m c) fun w => (dat0 (E0 m) c).arrAt w cfg0.N
theorem W6_arr (c : Dev nD) (w : Fin cfg0.W) :
    W6 m c (Proc.devRef .tc (Pipeline.arrRef spec0 w)) = (dat0 (E0 m) c).arrAt w cfg0.N := by
  unfold W6; exact Pipeline.withArrays_arr spec0 launch0.win.arr_inj c _ _ w

/-- What region 0 leaves in the buffers it may change, read at a reference. -/
def out6 : (r : Ref sig .tc) → (c : Dev nD) → Buf (Elt F) ((c : Thread nD τ).loc r) := fun r c => W6 m c (Proc.devRef .tc r)

/-- What region 1 is entered with: region 0's entry contents with its output array replaced. -/
abbrev E1v (c : Dev nD) : Valuation τ sig (Elt F) := Function.update (V5 m c) main_v32 (out6 m main_v32 c)
abbrev E1 : (c : Dev nD) → (b : Ref sig .tc) → Buf (Elt F) ((c : Thread nD τ).loc b) := fun c b => E1v m c b

/-- After region 1, likewise. -/
def W7 (c : Dev nD) : Valuation τ sig (Elt F) :=
  Pipeline.withArrays spec1 c (E1v m c) fun w => (dat1 (E1 m) c).arrAt w cfg1.N
theorem W7_arr (c : Dev nD) (w : Fin cfg1.W) :
    W7 m c (Proc.devRef .tc (Pipeline.arrRef spec1 w)) = (dat1 (E1 m) c).arrAt w cfg1.N := by
  unfold W7; exact Pipeline.withArrays_arr spec1 launch1.win.arr_inj c _ _ w
def out7 : (r : Ref sig .tc) → (c : Dev nD) → Buf (Elt F) ((c : Thread nD τ).loc r) := fun r c => W7 m c (Proc.devRef .tc r)

/-- What the regions leave, as the family the valuations between the items are written over. -/
def outs : Outs (F := F) := fun n r c => match n with
  | 6 => out6 m r c
  | _ => out7 m r c

abbrev E2v (c : Dev nD) : Valuation τ sig (Elt F) := Function.update (E1v m c) main_v33 (out7 m main_v33 c)
abbrev E2 : (c : Dev nD) → (b : Ref sig .tc) → Buf (Elt F) ((c : Thread nD τ).loc b) := fun c b => E2v m c b

theorem V6_eq (c : Dev nD) : V6 m (outs m) c = E1v m c := rfl
theorem V7_eq (c : Dev nD) : V7 m (outs m) c = E2v m c := rfl

/-- After region 0 each of its arrays holds what the pipeline leaves, -/
theorem hF0 (c : Dev nD) : ∀ w : Fin cfg0.W, (dat0 (E0 m) c).arrAt w cfg0.N = E1 m c (Pipeline.arrRef spec0 w)
  | ⟨0, _⟩ => ((dat0 (E0 m) c).arrAt_in 0 rfl _).trans ((A_eq0 (E0 m) c 0).trans (V6_of m (outs m) c _ (by decide)).symm)
  | ⟨1, _⟩ => ((dat0 (E0 m) c).arrAt_in 1 rfl _).trans ((A_eq0 (E0 m) c 1).trans (V6_of m (outs m) c _ (by decide)).symm)
  | ⟨2, _⟩ => ((dat0 (E0 m) c).arrAt_in 2 rfl _).trans ((A_eq0 (E0 m) c 2).trans (V6_of m (outs m) c _ (by decide)).symm)
  | ⟨3, _⟩ => ((dat0 (E0 m) c).arrAt_in 3 rfl _).trans ((A_eq0 (E0 m) c 3).trans (V6_of m (outs m) c _ (by decide)).symm)
  | ⟨4, _⟩ => (W6_arr m c 4).symm.trans (Function.update_self (f := V5 m c) (Proc.devRef .tc main_v32) (out6 m main_v32 c)).symm
/-- and every other buffer what it held at entry. -/
theorem hrest0 (c : Dev nD) : ∀ b, b ∉ Finset.univ.image (Pipeline.arrRef spec0) → E1 m c b = E0 m c b :=
  fun b hb => V6_of m (outs m) c b (fun h => hb (Finset.mem_image.mpr ⟨4, Finset.mem_univ _, (List.mem_singleton.mp h).symm⟩))

theorem hF1 (c : Dev nD) : ∀ w : Fin cfg1.W, (dat1 (E1 m) c).arrAt w cfg1.N = E2 m c (Pipeline.arrRef spec1 w)
  | ⟨0, _⟩ => ((dat1 (E1 m) c).arrAt_in 0 rfl _).trans ((A_eq1 (E1 m) c 0).trans (V7_of m (outs m) c _ (by decide)).symm)
  | ⟨1, _⟩ => ((dat1 (E1 m) c).arrAt_in 1 rfl _).trans ((A_eq1 (E1 m) c 1).trans (V7_of m (outs m) c _ (by decide)).symm)
  | ⟨2, _⟩ => ((dat1 (E1 m) c).arrAt_in 2 rfl _).trans ((A_eq1 (E1 m) c 2).trans (V7_of m (outs m) c _ (by decide)).symm)
  | ⟨3, _⟩ => (W7_arr m c 3).symm.trans (Function.update_self (f := E1v m c) (Proc.devRef .tc main_v33) (out7 m main_v33 c)).symm
theorem hrest1 (c : Dev nD) : ∀ b, b ∉ Finset.univ.image (Pipeline.arrRef spec1) → E2 m c b = E1 m c b :=
  fun b hb => V7_of m (outs m) c b (fun h => hb (Finset.mem_image.mpr ⟨3, Finset.mem_univ _, (List.mem_singleton.mp h).symm⟩))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

/-! ## The regions as segments -/

set_option backward.isDefEq.respectTransparency.types false in
/-- Region 0 over the thread state: its arrays split out of the unscoped buffers at entry and put back at the exit
    contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (E1v m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 likewise; its invariant carries the accumulator between points and forgets it at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (E1v m c) ∗ R c)
  post c := iprop(StableHlo.held (c : Thread nD τ) (Pipeline.ucRefs τ sig) (E2v m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c); unfold Pipeline.ΦA
    iintro ⟨Hp, -, Hr⟩
    isplitl [Hr]; · iexact Hr
    iexact Hp
  hout c := by
    rw [Pipeline.ownSems0_none]; refine (hout1 (E1 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every final memory holds each unscoped buffer at the last valuation: the launch over the items' segments, the last
    thread state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) := by
  have hlast : ∀ c : Dev nD, (iprop(StableHlo.held (c : Thread nD τ) (Pipeline.ucRefs τ sig) (V8 m (outs m) c) ∗ R c) : sProp 𝕄)
      ⊢ iprop(iprop(StableHlo.held (c : Thread nD τ) (Pipeline.ucRefs τ sig) (V8 m (outs m) c) ∗ ∃ r, prngReg c r)
          ∗ ∃ W, owes (c : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m (outs m) 𝒱₀ L lv ER () (pdats m) (reg0 m) (reg1 m))
    (fun c Q => by
      rewrite [main_chain c, Seg.run_eq_chain,
        show (segs m (outs m) 𝒱₀ L lv ER () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V8 m (outs m) c) ∗ ∃ r, prngReg c r))
    (hch := fun c => ⟨.rfl, .rfl, .rfl, .rfl, .rfl, .rfl, .rfl, .rfl, hlast c⟩)
    (hinit := ?_)
    (QY := fun c s => ∀ b ∈ Pipeline.ucRefs τ sig, s.mem (((c : Thread nD τ)).1, b) = V8 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V8 m (outs m) c) s')
    isplitl [Hh] <;> iassumption

/-- The frame: the argument arrays end as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c),
     (h c _ (mem_uc main_arg3 (by decide))).trans (V8_main_arg3 m (outs m) c),
     (h c _ (mem_uc main_arg4 (by decide))).trans (V8_main_arg4 m (outs m) c)⟩) (run_main m ρ)

end Cert.Kernel.Reg

end
-- ==== Proof.KIReg0.lean ====
/-
  Region 0 of the kernel program: the fused linear layer and right scaling, one row block of 1024 nodes per grid
  point. At each point the body reads a block of the padded features, the whole weight matrix, the bias row and a
  block of the broadcast inverse square-root degrees, and stores (x·W + b) ⊙ dinv, narrowed to bf16, over the whole
  output block. Stated at any float instance and at any contents `V` of the buffers the region is entered with:
  the blocks each window holds, what the one store leaves in the output buffer, the body's triple, the proof data
  and the body obligation.
-/
import proofs.«430833_j68839735821095_2_alg».proof.Proof.Gen.KernelIdeal.Launch
import proofs.«430833_j68839735821095_2_alg».proof.Proof.Gen.KernelIdeal.Skeleton
import proofs.«430833_j68839735821095_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not (where it
    does not, the block index has not moved): the feature rows. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the weight matrix (one block, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the bias row (one block, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the rows of the broadcast scaling. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rRows : Rect S1024x256 := Rect.unit (s := S1024x256) ![0, 0] S1024x256.size inb_S1024x256_S1024x256_0_0
abbrev rWeight : Rect S256x256 := Rect.unit (s := S256x256) ![0, 0] S256x256.size inb_S256x256_S256x256_0_0
abbrev rBias : Rect S1x256 := Rect.unit (s := S1x256) ![0, 0] S1x256.size inb_S1x256_S1x256_0_0

/-- The output buffer after the body: its one store, of the scaled linear layer of the four input blocks. -/
def out0 (x0 : Vec F S1024x256 .f32) (x1 : Vec F S256x256 .f32) (x2 : Vec F S1x256 .f32) (x3 : Vec F S1024x256 .f32) : Vec F S1024x256 .bf16 :=
  View.canon [⟨rRows, k0_pay1 (View.ld x0 rRows) (View.ld x1 rWeight) (View.ld x2 rBias) (View.ld x3 rRows)⟩]

/-- The store covers the buffer. -/
theorem cover0 (p0 : Vec F S1024x256 .bf16) (y : S1024x256.Idx) :
    ∃ pc ∈ ([⟨rRows, p0⟩] : List (View.Piece (Elt F) S1024x256 .bf16)), y ∈ pc.1.set :=
  View.cover_of_tiled [⟨rRows, p0⟩] S1024x256.size (by rfl) y

/-! ## The body's triple -/

set_option maxHeartbeats 2000000 in
/-- The body on whole staging memrefs, the inputs' at contents `x0 … x3` and the output's at anything, runs to the
    continuation holding the inputs' as they were and the output's at `out0` of them. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S1024x256 .f32) (harg4 : arg4.IsWhole)
    (arg5 : Memref sig .tc .vmem S1024x256 .bf16) (harg5 : arg5.IsWhole)
    (x0 : Vec F S1024x256 .f32) (x1 : Vec F S256x256 .f32) (x2 : Vec F S1x256 .f32) (x3 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0 x0 x1 x2 x3)) -∗ K ⟨⟩))
      ⊢ wp frame (wpE (defs₀ (F := F)) Variants.none c none) E (cc0__linear_scale_kernel i arg1 harg1 arg2 harg2 arg3 harg3 arg4 harg4 arg5 harg5) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0 _)

/-! ## The proof data -/

/-- The proof data of pipeline 0 on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KIReg1.lean ====
/-
  Region 1 of the kernel program: the dense adjacency product. The grid is 10 row blocks of 1024 nodes by 5 column
  blocks of 2048; at each point the body adds the product of a 1024 × 2048 block of the adjacency counts with a
  2048 × 256 block of the scaled activations to an accumulator it keeps in a scratch buffer across the five points of
  a row block — zeroed at the first of them — and at the last of them stores the accumulator times the block of the
  normalisation into the output block, which the pipeline writes back only there. Stated at any float instance and
  at any contents `V` of the buffers the region is entered with: the blocks, the body's run in each of its three
  control cases (first, middle, last column block), what the accumulator and the output buffer hold after each
  point, the invariant that carries the accumulator, the proof data and the body obligation.
-/
import proofs.«430833_j68839735821095_2_alg».proof.Proof.Gen.KernelIdeal.Launch
import proofs.«430833_j68839735821095_2_alg».proof.Proof.Gen.KernelIdeal.Skeleton
import proofs.«430833_j68839735821095_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions, over the grid -/

/-- The first branch (zero the accumulator): the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)
/-- The second branch (store the output): the column-block coordinate is the last, 4. -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last column block the output window is idle and is not written back; -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- at the last column block it is live. -/
theorem liveAt1_3 : ∀ t : Fin cfg1.N, cond1_1 (grid1.coords t) → cfg1.idle 3 (grid1.coords t) = false := by decide +kernel

/-! ## The memrefs the body is called with -/

abbrev VO1 : View sig .tc .vmem S1024x256 .f32 := (Memref.whole cc1_stg3_0 : Memref sig .tc .vmem S1024x256 .f32).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x256 .f32 := Memref.whole cc1_scratch0
abbrev VS1 : View sig .tc .vmem S1024x256 .f32 := scM1.view

/-- The scoped buffers that are no staging buffer of this region, with the accumulator's place held by `S`. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ S)

/-- The region's plain invariant (every scoped buffer outside its staging at some contents, the generator register at
    some state) with the accumulator as a memref owned at some contents. -/
theorem PhiA1_eq (c : Dev nD) :
    (Pipeline.ΦA spec1 c : sProp 𝕄) = iprop(restWith c (iprop(∃ d, owns (c : Thread nD τ) scM1 fullShare d)) ∗ (∃ r, prngReg c r)) := by
  unfold Pipeline.ΦA restWith; rw [scopedRest1_eq]; simp only [scM1, owns_whole]; try rfl

/-! ## The body's run, case by case: the pieces each buffer ends with are what the run finds -/

set_option maxHeartbeats 4000000 in
/-- FIRST column block (the accumulator zeroed, then the product added; the output untouched). -/
noncomputable def kernelRun1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x2048 .bf16) (x1 : Vec F S2048x256 .bf16) (x2 : Vec F S1024x256 .f32) :
    Σ' (L3 : List (View.Piece (Elt F) S1024x256 .f32)), { LS : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_scale_kernel i arg2 harg2 arg3 harg3 arg4 harg4 arg5 harg5 arg6 harg6) K } := by
  refine ⟨[], ?_, fun xi3 E K => ?run⟩
  case run =>
    simp only [cc1__spmm_scale_kernel_eq_skeleton]; unfold cc1__spmm_scale_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- A MIDDLE column block (the product added to what the point before left; the output untouched). -/
noncomputable def kernelRun1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x2048 .bf16) (x1 : Vec F S2048x256 .bf16) (x2 : Vec F S1024x256 .f32) (xs : Vec F S1024x256 .f32) :
    Σ' (L3 : List (View.Piece (Elt F) S1024x256 .f32)), { LS : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__spmm_scale_kernel i arg2 harg2 arg3 harg3 arg4 harg4 arg5 harg5 arg6 harg6) K } := by
  refine ⟨[], ?_, fun xi3 E K => ?run⟩
  case run =>
    simp only [cc1__spmm_scale_kernel_eq_skeleton]; unfold cc1__spmm_scale_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 4000000 in
/-- The LAST column block (the product added, then the accumulator times the normalisation stored into the output). -/
noncomputable def kernelRun1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x2048 .bf16) (x1 : Vec F S2048x256 .bf16) (x2 : Vec F S1024x256 .f32) (xs : Vec F S1024x256 .f32) :
    Σ' (L3 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__spmm_scale_kernel i arg2 harg2 arg3 harg3 arg4 harg4 arg5 harg5 arg6 harg6) K } := by
  refine ⟨?_, ?_, fun E K => ?run⟩
  case run =>
    simp only [cc1__spmm_scale_kernel_eq_skeleton]; unfold cc1__spmm_scale_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

/-! ## What each case leaves in the output buffer and in the accumulator -/

/-- The first case stores nothing into the output: a placeholder nothing consults (the window is idle there). -/
def out1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i) (x0 : Vec F S1024x2048 .bf16) (x1 : Vec F S2048x256 .bf16) (x2 : Vec F S1024x256 .f32) : Vec F S1024x256 .f32 :=
  VO1.read (Elt F) (VO1.writes (Elt F) VO1.junk (kernelRun1_A c i arg2 harg2 arg3 harg3 arg4 harg4 arg5 harg5 arg6 harg6 hc0 hc1 x0 x1 x2).1)
theorem scover1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i) (x0 : Vec F S1024x2048 .bf16) (x1 : Vec F S2048x256 .bf16) (x2 : Vec F S1024x256 .f32) (y : S1024x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x256.size (by sl_kernel_rfl) y
/-- The accumulator after the first case: its pieces read back. -/
def sout1_A (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i) (x0 : Vec F S1024x2048 .bf16) (x1 : Vec F S2048x256 .bf16) (x2 : Vec F S1024x256 .f32) : Vec F S1024x256 .f32 :=
  VS1.read (Elt F) (VS1.writes (Elt F) VS1.junk (kernelRun1_A c i arg2 harg2 arg3 harg3 arg4 harg4 arg5 harg5 arg6 harg6 hc0 hc1 x0 x1 x2).2.1)

def out1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i) (x0 : Vec F S1024x2048 .bf16) (x1 : Vec F S2048x256 .bf16) (x2 : Vec F S1024x256 .f32) (xs : Vec F S1024x256 .f32) : Vec F S1024x256 .f32 :=
  VO1.read (Elt F) (VO1.writes (Elt F) VO1.junk (kernelRun1_B c i arg2 harg2 arg3 harg3 arg4 harg4 arg5 harg5 arg6 harg6 hc0 hc1 x0 x1 x2 xs).1)
theorem scover1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i) (x0 : Vec F S1024x2048 .bf16) (x1 : Vec F S2048x256 .bf16) (x2 : Vec F S1024x256 .f32) (xs : Vec F S1024x256 .f32) (y : S1024x256.Idx) :
    ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S1024x256.size (by sl_kernel_rfl) y
/-- The accumulator after a middle case. -/
def sout1_B (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i) (x0 : Vec F S1024x2048 .bf16) (x1 : Vec F S2048x256 .bf16) (x2 : Vec F S1024x256 .f32) (xs : Vec F S1024x256 .f32) : Vec F S1024x256 .f32 :=
  VS1.read (Elt F) (VS1.writes (Elt F) VS1.junk (kernelRun1_B c i arg2 harg2 arg3 harg3 arg4 harg4 arg5 harg5 arg6 harg6 hc0 hc1 x0 x1 x2 xs).2.1)

theorem cover1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) (y : S1024x256.Idx) :
    ∃ pc ∈ (kernelRun1_C c i arg2 harg2 arg3 harg3 arg4 harg4 arg5 harg5 arg6 harg6 hc0 hc1 x0 x1 x2 xs).1, y ∈ pc.1.set :=
  View.cover_of_tiledL (kernelRun1_C c i arg2 harg2 arg3 harg3 arg4 harg4 arg5 harg5 arg6 harg6 hc0 hc1 x0 x1 x2 xs).1 S1024x256.size (by sl_kernel_rfl) y
/-- The output buffer after the last case: its one store read back. -/
def out1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) : Vec F S1024x256 .f32 :=
  VO1.read (Elt F) (VO1.writes (Elt F) VO1.junk (kernelRun1_C c i arg2 harg2 arg3 harg3 arg4 harg4 arg5 harg5 arg6 harg6 hc0 hc1 x0 x1 x2 xs).1)
theorem scover1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) (y : S1024x256.Idx) :
    ∃ pc ∈ (kernelRun1_C c i arg2 harg2 arg3 harg3 arg4 harg4 arg5 harg5 arg6 harg6 hc0 hc1 x0 x1 x2 xs).2.1, y ∈ pc.1.set :=
  View.cover_of_tiledL (kernelRun1_C c i arg2 harg2 arg3 harg3 arg4 harg4 arg5 harg5 arg6 harg6 hc0 hc1 x0 x1 x2 xs).2.1 S1024x256.size (by sl_kernel_rfl) y
/-- The accumulator after the last case. -/
def sout1_C (c : Dev nD) (i : grid1.Coords) (arg2 : Memref sig .tc .vmem S1024x2048 .bf16) (harg2 : arg2.IsWhole) (arg3 : Memref sig .tc .vmem S2048x256 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i) (x0 : Vec F S1024x2048 .bf16) (x1 : Vec F S2048x256 .bf16) (x2 : Vec F S1024x256 .f32) (xs : Vec F S1024x256 .f32) : Vec F S1024x256 .f32 :=
  VS1.read (Elt F) (VS1.writes (Elt F) VS1.junk (kernelRun1_C c i arg2 harg2 arg3 harg3 arg4 harg4 arg5 harg5 arg6 harg6 hc0 hc1 x0 x1 x2 xs).2.1)

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output buffer and the accumulator hold after each point -/

/-- By recursion on the point: (the output buffer, the accumulator) after point `n` — the first column block of a row
    block starts the accumulator afresh, the others add to what the point before left, the last also stores. -/
def outsAt1 (c : Dev nD) : (n : ℕ) → n < cfg1.N → Vec F S1024x256 .f32 × Vec F S1024x256 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 5 = 0 then
      if h1 : (n + 1) % 5 = 4 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 5 = 4 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 5 = 0) (h1 : ¬t.val % 5 = 4) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t), sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before the first point the region's plain invariant; after point `n` the accumulator at what that point left, the
    other scoped buffers at anything, the generator register at some state. -/
def PhiS1 (c : Dev nD) : (n : ℕ) → n ≤ cfg1.N → sProp 𝕄
  | 0, _ => Pipeline.ΦA spec1 c
  | n + 1, hn => iprop(restWith c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restWith c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(restWith c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any point: the closed forms of the two conditions say which case the point is in; the invariant hands
    the body the accumulator at what the point before left (at anything before the first point) and takes it back at
    this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 50 := lt_of_lt_of_eq t.isLt (show cfg1.N = 50 from N_1)
  by_cases h0 : t.val % 5 = 0
  · have h1 : ¬t.val % 5 = 4 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    have hΦ : (dat1 V c).Φ t.castSucc ⊢ (iprop(restWith c (iprop(∃ d, owns (c : Thread nD τ) scM1 fullShare d)) ∗ (∃ r, prngReg c r)) : sProp 𝕄) := by
      by_cases hz : t.val = 0
      · rw [PhiS1_castSucc V c t, PhiS1_zero V c _ _ hz, PhiA1_eq]
      · rw [PhiS1_castSucc V c t, PhiS1_pos V c _ _ hz]; unfold restWith
        iintro ⟨⟨O0, O1, O2, O3, O4, O5, O6, O7, HS⟩, Hg⟩
        isplitr [Hg]
        swap; · iexact Hg
        isplitl [O0]; · iexact O0
        isplitl [O1]; · iexact O1
        isplitl [O2]; · iexact O2
        isplitl [O3]; · iexact O3
        isplitl [O4]; · iexact O4
        isplitl [O5]; · iexact O5
        isplitl [O6]; · iexact O6
        isplitl [O7]; · iexact O7
        iexists _; iexact HS
    iintro ⟨HΦ, Ho, ⟨%d0, H0⟩, ⟨%d1, H1⟩, ⟨%d2, H2⟩, ⟨%d3, H3⟩⟩
    ihave HΦ' := hΦ $$ HΦ
    unfold restWith
    icases HΦ' with ⟨⟨O0, O1, O2, O3, O4, O5, O6, O7, HS⟩, Hg⟩
    iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitr [Ho H0 H1 H2 H3]
    swap
    · isplitl [Ho]; · iexact Ho
      isplitl [H0]; · iexact H0
      isplitl [H1]; · iexact H1
      isplitl [H2]; · iexact H2
      iexists _; iexact H3
    isplitr [Hg]
    swap; · iexact Hg
    isplitl [O0]; · iexact O0
    isplitl [O1]; · iexact O1
    isplitl [O2]; · iexact O2
    isplitl [O3]; · iexact O3
    isplitl [O4]; · iexact O4
    isplitl [O5]; · iexact O5
    isplitl [O6]; · iexact O6
    isplitl [O7]; · iexact O7
    unfold owns; iexists _; isplitr
    swap; · iexact HS
    ipureintro; exact View.read_writes_of_cover _ _ _ _ _ (scover1_A c _ _ _ _ _ _ _ _ _ _ _ _ _ _ _ _)
  · have hz : t.val ≠ 0 := by omega
    have hΦ : (dat1 V c).Φ t.castSucc = iprop(restWith c (owns (c : Thread nD τ) scM1 fullShare ((outsAt1 V c (t.val - 1) (by omega)).2)) ∗ (∃ r, prngReg c r)) := by
      rw [PhiS1_castSucc V c t, PhiS1_pos V c _ _ hz]
    rw [hΦ]
    by_cases h1 : t.val % 5 = 4
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      unfold restWith
      iintro ⟨⟨⟨O0, O1, O2, O3, O4, O5, O6, O7, HS⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitr [Ho H0 H1 H2 H3]
      swap
      · isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C c _ _ _ _ _ _ _ _ _ _ _ _ _ _ _ _ _)
      isplitr [Hg]
      swap; · iexact Hg
      isplitl [O0]; · iexact O0
      isplitl [O1]; · iexact O1
      isplitl [O2]; · iexact O2
      isplitl [O3]; · iexact O3
      isplitl [O4]; · iexact O4
      isplitl [O5]; · iexact O5
      isplitl [O6]; · iexact O6
      isplitl [O7]; · iexact O7
      unfold owns; iexists _; isplitr
      swap; · iexact HS
      ipureintro; exact View.read_writes_of_cover _ _ _ _ _ (scover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      unfold restWith
      iintro ⟨⟨⟨O0, O1, O2, O3, O4, O5, O6, O7, HS⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitr [Ho H0 H1 H2 H3]
      swap
      · isplitl [Ho]; · iexact Ho
        isplitl [H0]; · iexact H0
        isplitl [H1]; · iexact H1
        isplitl [H2]; · iexact H2
        iexists _; iexact H3
      isplitr [Hg]
      swap; · iexact Hg
      isplitl [O0]; · iexact O0
      isplitl [O1]; · iexact O1
      isplitl [O2]; · iexact O2
      isplitl [O3]; · iexact O3
      isplitl [O4]; · iexact O4
      isplitl [O5]; · iexact O5
      isplitl [O6]; · iexact O6
      isplitl [O7]; · iexact O7
      unfold owns; iexists _; isplitr
      swap; · iexact HS
      ipureintro; exact View.read_writes_of_cover _ _ _ _ _ (scover1_B c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  have hN : cfg1.N = 50 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  unfold restWith
  iintro ⟨⟨O0, O1, O2, O3, O4, O5, O6, O7, HS⟩, Hg⟩
  isplitr [Hg]
  swap; · iexact Hg
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  iexists _; iexact HS

end Cert.KernelIdeal.Reg

end
-- ==== Proof.KIRun.lean ====
/-
  The whole run of the kernel program: five stretches of host operations, the two kernel regions, the closing slice.
  Between two items a core holds every unscoped buffer at a known valuation: the launch contents, then each host
  stretch applied, then — after a region — its output array at what the region's write-backs leave and every other
  buffer as before. Here: those valuations, the proof data of both pipelines at their regions' entry contents, each
  region as a segment entered from and left at those thread states, and the run itself, whose every weakly fair
  execution terminates with every unscoped buffer at the last valuation. Stated at any float instance.
-/
import proofs.«430833_j68839735821095_2_alg».proof.Proof.KIReg0
import proofs.«430833_j68839735821095_2_alg».proof.Proof.KIReg1
import proofs.«430833_j68839735821095_2_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the regions' boundaries -/

/-- What region 0 is entered with: the launch contents after the five host stretches. -/
abbrev E0 : (c : Dev nD) → (b : Ref sig .tc) → Buf (Elt F) ((c : Thread nD τ).loc b) := fun c b => V5 m c b

/-- After region 0: its arrays at what the pipeline leaves (the inputs as entered, the output's write-backs folded),
    every other buffer as entered. -/
def W6 (c : Dev nD) : Valuation τ sig (Elt F) :=
  Pipeline.withArrays spec0 c (V5 m c) fun w => (dat0 (E0 m) c).arrAt w cfg0.N
theorem W6_arr (c : Dev nD) (w : Fin cfg0.W) :
    W6 m c (Proc.devRef .tc (Pipeline.arrRef spec0 w)) = (dat0 (E0 m) c).arrAt w cfg0.N := by
  unfold W6; exact Pipeline.withArrays_arr spec0 launch0.win.arr_inj c _ _ w

/-- What region 0 leaves in the buffers it may change, read at a reference. -/
def out6 : (r : Ref sig .tc) → (c : Dev nD) → Buf (Elt F) ((c : Thread nD τ).loc r) := fun r c => W6 m c (Proc.devRef .tc r)

/-- What region 1 is entered with: region 0's entry contents with its output array replaced. -/
abbrev E1v (c : Dev nD) : Valuation τ sig (Elt F) := Function.update (V5 m c) main_v32 (out6 m main_v32 c)
abbrev E1 : (c : Dev nD) → (b : Ref sig .tc) → Buf (Elt F) ((c : Thread nD τ).loc b) := fun c b => E1v m c b

/-- After region 1, likewise. -/
def W7 (c : Dev nD) : Valuation τ sig (Elt F) :=
  Pipeline.withArrays spec1 c (E1v m c) fun w => (dat1 (E1 m) c).arrAt w cfg1.N
theorem W7_arr (c : Dev nD) (w : Fin cfg1.W) :
    W7 m c (Proc.devRef .tc (Pipeline.arrRef spec1 w)) = (dat1 (E1 m) c).arrAt w cfg1.N := by
  unfold W7; exact Pipeline.withArrays_arr spec1 launch1.win.arr_inj c _ _ w
def out7 : (r : Ref sig .tc) → (c : Dev nD) → Buf (Elt F) ((c : Thread nD τ).loc r) := fun r c => W7 m c (Proc.devRef .tc r)

/-- What the regions leave, as the family the valuations between the items are written over. -/
def outs : Outs (F := F) := fun n r c => match n with
  | 6 => out6 m r c
  | _ => out7 m r c

abbrev E2v (c : Dev nD) : Valuation τ sig (Elt F) := Function.update (E1v m c) main_v33 (out7 m main_v33 c)
abbrev E2 : (c : Dev nD) → (b : Ref sig .tc) → Buf (Elt F) ((c : Thread nD τ).loc b) := fun c b => E2v m c b

theorem V6_eq (c : Dev nD) : V6 m (outs m) c = E1v m c := rfl
theorem V7_eq (c : Dev nD) : V7 m (outs m) c = E2v m c := rfl

/-- After region 0 each of its arrays holds what the pipeline leaves, -/
theorem hF0 (c : Dev nD) : ∀ w : Fin cfg0.W, (dat0 (E0 m) c).arrAt w cfg0.N = E1 m c (Pipeline.arrRef spec0 w)
  | ⟨0, _⟩ => ((dat0 (E0 m) c).arrAt_in 0 rfl _).trans ((A_eq0 (E0 m) c 0).trans (V6_of m (outs m) c _ (by decide)).symm)
  | ⟨1, _⟩ => ((dat0 (E0 m) c).arrAt_in 1 rfl _).trans ((A_eq0 (E0 m) c 1).trans (V6_of m (outs m) c _ (by decide)).symm)
  | ⟨2, _⟩ => ((dat0 (E0 m) c).arrAt_in 2 rfl _).trans ((A_eq0 (E0 m) c 2).trans (V6_of m (outs m) c _ (by decide)).symm)
  | ⟨3, _⟩ => ((dat0 (E0 m) c).arrAt_in 3 rfl _).trans ((A_eq0 (E0 m) c 3).trans (V6_of m (outs m) c _ (by decide)).symm)
  | ⟨4, _⟩ => (W6_arr m c 4).symm.trans (Function.update_self (f := V5 m c) (Proc.devRef .tc main_v32) (out6 m main_v32 c)).symm
/-- and every other buffer what it held at entry. -/
theorem hrest0 (c : Dev nD) : ∀ b, b ∉ Finset.univ.image (Pipeline.arrRef spec0) → E1 m c b = E0 m c b :=
  fun b hb => V6_of m (outs m) c b (fun h => hb (Finset.mem_image.mpr ⟨4, Finset.mem_univ _, (List.mem_singleton.mp h).symm⟩))

theorem hF1 (c : Dev nD) : ∀ w : Fin cfg1.W, (dat1 (E1 m) c).arrAt w cfg1.N = E2 m c (Pipeline.arrRef spec1 w)
  | ⟨0, _⟩ => ((dat1 (E1 m) c).arrAt_in 0 rfl _).trans ((A_eq1 (E1 m) c 0).trans (V7_of m (outs m) c _ (by decide)).symm)
  | ⟨1, _⟩ => ((dat1 (E1 m) c).arrAt_in 1 rfl _).trans ((A_eq1 (E1 m) c 1).trans (V7_of m (outs m) c _ (by decide)).symm)
  | ⟨2, _⟩ => ((dat1 (E1 m) c).arrAt_in 2 rfl _).trans ((A_eq1 (E1 m) c 2).trans (V7_of m (outs m) c _ (by decide)).symm)
  | ⟨3, _⟩ => (W7_arr m c 3).symm.trans (Function.update_self (f := E1v m c) (Proc.devRef .tc main_v33) (out7 m main_v33 c)).symm
theorem hrest1 (c : Dev nD) : ∀ b, b ∉ Finset.univ.image (Pipeline.arrRef spec1) → E2 m c b = E1 m c b :=
  fun b hb => V7_of m (outs m) c b (fun h => hb (Finset.mem_image.mpr ⟨3, Finset.mem_univ _, (List.mem_singleton.mp h).symm⟩))

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev ER : Fin 3 → Dev nD → sProp 𝕄 := fun _ c => R c

/-! ## The regions as segments -/

set_option backward.isDefEq.respectTransparency.types false in
/-- Region 0 over the thread state: its arrays split out of the unscoped buffers at entry and put back at the exit
    contents; the generator register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (E1v m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 likewise; its invariant carries the accumulator between points and forgets it at the exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (E1v m c) ∗ R c)
  post c := iprop(StableHlo.held (c : Thread nD τ) (Pipeline.ucRefs τ sig) (E2v m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c); unfold Pipeline.ΦA
    iintro ⟨Hp, -, Hr⟩
    isplitl [Hr]; · iexact Hr
    iexact Hp
  hout c := by
    rw [Pipeline.ownSems0_none]; refine (hout1 (E1 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every final memory holds each unscoped buffer at the last valuation: the launch over the items' segments, the last
    thread state read against the final state. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) := by
  have hlast : ∀ c : Dev nD, (iprop(StableHlo.held (c : Thread nD τ) (Pipeline.ucRefs τ sig) (V8 m (outs m) c) ∗ R c) : sProp 𝕄)
      ⊢ iprop(iprop(StableHlo.held (c : Thread nD τ) (Pipeline.ucRefs τ sig) (V8 m (outs m) c) ∗ ∃ r, prngReg c r)
          ∗ ∃ W, owes (c : Thread nD τ) (0 : CellTallies nD τ sig Unit) W) := fun c => by
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m (outs m) 𝒱₀ L lv ER () (pdats m) (reg0 m) (reg1 m))
    (fun c Q => by
      rewrite [main_chain c, Seg.run_eq_chain,
        show (segs m (outs m) 𝒱₀ L lv ER () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V8 m (outs m) c) ∗ ∃ r, prngReg c r))
    (hch := fun c => ⟨.rfl, .rfl, .rfl, .rfl, .rfl, .rfl, .rfl, .rfl, hlast c⟩)
    (hinit := ?_)
    (QY := fun c s => ∀ b ∈ Pipeline.ucRefs τ sig, s.mem (((c : Thread nD τ)).1, b) = V8 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V8 m (outs m) c) s')
    isplitl [Hh] <;> iassumption

/-- The frame: the argument arrays end as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c),
     (h c _ (mem_uc main_arg3 (by decide))).trans (V8_main_arg3 m (outs m) c),
     (h c _ (mem_uc main_arg4 (by decide))).trans (V8_main_arg4 m (outs m) c)⟩) (run_main m ρ)

end Cert.KernelIdeal.Reg

end
-- ==== Proof.KIVal0.lean ====
/-
  What region 0 of the kernel program leaves in its output array, at the ideal values, as one function of the four
  arrays it reads: at row p and column q of the 10240 × 256 output,
  ((Σ_k x p k · w k q) + b 0 q) · d p q, where x is the padded features, w the weights, b the bias as a 1 × 256 row
  and d the broadcast scaling. Each grid point t computes rows 1024·t … 1024·t + 1023 from the same rows of x and d and
  from the whole of w and b; narrowing to bf16 is the identity at the ideal values; the ten row blocks tile the array.
-/
import proofs.«430833_j68839735821095_2_alg».proof.Proof.KIReg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Val0

open Cert.KernelIdeal Cert.KernelIdeal.Gen Cert.KernelIdeal.Reg

/-- The scaled linear layer at row `p`, column `q`: the row of `x` against the column of `w`, plus the bias, times the
    scaling there. -/
def lin0At (x : S10240x256.Idx → EReal) (w : S256x256.Idx → EReal) (b : S1x256.Idx → EReal) (d : S10240x256.Idx → EReal)
    (p : Fin 10240) (q : Fin 256) : EReal :=
  ((∑ k : Fin 256, x (ValueIdx.ix2 p k) * w (ValueIdx.ix2 k q)) + b (ValueIdx.ix2 (0 : Fin 1) q)) * d (ValueIdx.ix2 p q)

open Idealize.ShloMosaic.ValueIdx

theorem hz : (![0, 0] : Fin 2 → Nat) = fun _ => 0 := funext fun a => by fin_cases a <;> rfl

/-! ## The matrix product's operand indices: at output index (r, q) and contraction index k, (r, k) and (k, q) -/

theorem lhs_dot_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_dot_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_dot_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_dot_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The matrix product of a block of rows with the weights, into the zero accumulator, at row `r` and column `q`. -/
theorem matmul_at (x0 : FVec Ideal S1024x256 .f32) (x1 : FVec Ideal S256x256 .f32) (r : Fin 1024) (q : Fin 256) :
    (matmul dot_S1024x256_S256x256_S1024x256_1_0_0_1_n_n (some .fp32) x0 x1 (constant S1024x256 .f32 0x00000000#32) : FVec Ideal S1024x256 .f32) (ix2 r q)
      = ∑ k : Fin 256, x0 (ix2 r k) * x1 (ix2 k q) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r q) ((ValueIdx.contrEquiv1 dot_S1024x256_S256x256_S1024x256_1_0_0_1_n_n 256 rfl rfl).symm k) = ix2 r k := funext fun a => Fin.ext (by
    match a with
    | ⟨0, _⟩ => exact lhs_dot_0 _ _
    | ⟨1, _⟩ => exact (lhs_dot_1 _ _).trans hk)
  have er : dot_S1024x256_S256x256_S1024x256_1_0_0_1_n_n.rhsIdx (ix2 r q) ((ValueIdx.contrEquiv1 dot_S1024x256_S256x256_S1024x256_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- The body's payload at row `r`, column `q` of its block: the row of the feature block against the column of the
    weights, plus the bias row's entry, times the scaling block's entry; the narrowing changes nothing. -/
theorem pay_at (x0 : Vec Ideal S1024x256 .f32) (x1 : Vec Ideal S256x256 .f32) (x2 : Vec Ideal S1x256 .f32) (x3 : Vec Ideal S1024x256 .f32)
    (r : Fin 1024) (q : Fin 256) :
    (k0_pay1 x0 x1 x2 x3 : S1024x256.Idx → EReal) (ix2 r q)
      = ((∑ k : Fin 256, x0 (ix2 r k) * x1 (ix2 k q)) + x2 (ix2 (0 : Fin 1) q)) * x3 (ix2 r q) := by
  unfold k0_pay1
  simp only [shapeCast_self]
  rw [truncf_apply, mulf_apply, addf_apply, matmul_at]
  rw [broadcastTo_apply x2 broadcasts_S1x256_S1024x256 (ix2 r q) (ix2 (0 : Fin 1) q) (fun a => by
    match a with
    | ⟨0, _⟩ => show (0 : Nat) = if (1 : Nat) = 1 then 0 else r.val; rw [if_pos rfl]
    | ⟨1, _⟩ => show q.val = if (256 : Nat) = 1 then 0 else q.val; rw [if_neg (by decide)])]

variable (V : (c : Dev nD) → (b : Ref sig .tc) → Buf (Elt Ideal) ((c : Thread nD τ).loc b)) (c : Dev nD)

/-- The output array as one function of the four arrays the region reads. -/
def G0 : S10240x256.Idx → EReal :=
  fun i => lin0At (V c main_v10) (V c main_arg3) (V c main_v31) (V c main_v9) (i 0) (i 1)

/-! ## Where each window's block sits at point `t`: the row blocks at block row `t`, the weights and the bias whole -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature block at point `t` is rows 1024·t … 1024·t + 1023 of the padded features. -/
theorem rows_at (t : Fin cfg0.N) (x : S1024x256.Idx) (k : S10240x256.Idx)
    (hk0 : (k 0).val = 1024 * t.val + (x 0).val) (hk1 : (k 1).val = (x 1).val) :
    (iblk0 V c 0 t : Vec Ideal S1024x256 .f32) x = (V c main_v10 : S10240x256.Idx → EReal) k := by
  obtain ⟨e0, e1, -⟩ := idx_facts t
  unfold iblk0
  rw [View.read_apply]
  show V c main_v10 _ = V c main_v10 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 256 + 1 * (x 1).val = (k 1).val; rw [e1, hk1]; omega

/-- The scaling block at point `t` is the same rows of the broadcast scaling. -/
theorem scal_at (t : Fin cfg0.N) (x : S1024x256.Idx) (k : S10240x256.Idx)
    (hk0 : (k 0).val = 1024 * t.val + (x 0).val) (hk1 : (k 1).val = (x 1).val) :
    (iblk0 V c 3 t : Vec Ideal S1024x256 .f32) x = (V c main_v9 : S10240x256.Idx → EReal) k := by
  obtain ⟨-, -, -, -, -, -, e0, e1, -⟩ := idx_facts t
  unfold iblk0
  rw [View.read_apply]
  show V c main_v9 _ = V c main_v9 _
  congr 1
  funext a
  apply Fin.ext
  match a with
  | ⟨0, _⟩ => show win0_3.index t (0 : Fin 2) * 1024 + 1 * (x 0).val = (k 0).val; rw [e0, hk0]; omega
  | ⟨1, _⟩ => show win0_3.index t (1 : Fin 2) * 256 + 1 * (x 1).val = (k 1).val; rw [e1, hk1]; omega

/-- The weight block at every point is the whole weight matrix. -/
theorem weight_at (t : Fin cfg0.N) (x : S256x256.Idx) :
    (iblk0 V c 1 t : Vec Ideal S256x256 .f32) x = (V c main_arg3 : S256x256.Idx → EReal) x := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The bias block at every point is the whole bias row. -/
theorem bias_at (t : Fin cfg0.N) (x : S1x256.Idx) :
    (iblk0 V c 2 t : Vec Ideal S1x256 .f32) x = (V c main_v31 : S1x256.Idx → EReal) x := by
  obtain ⟨-, -, -, -, e0, e1, -⟩ := idx_facts t
  unfold iblk0
  rw [View.read_apply]
  show V c main_v31 _ = V c main_v31 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The payload at (r, q) of blocks that are rows of `A0` and `A3` from row `p` on, and the whole of `A1` and `A2`,
    is the scaled linear layer of the four arrays at (p, q'). -/
theorem point_eq (x0 : Vec Ideal S1024x256 .f32) (x1 : Vec Ideal S256x256 .f32) (x2 : Vec Ideal S1x256 .f32) (x3 : Vec Ideal S1024x256 .f32)
    (A0 : S10240x256.Idx → EReal) (A1 : S256x256.Idx → EReal) (A2 : S1x256.Idx → EReal) (A3 : S10240x256.Idx → EReal)
    (r : Fin 1024) (q : Fin 256) (p : Fin 10240) (q' : Fin 256)
    (h0 : ∀ k : Fin 256, x0 (ix2 r k) = A0 (ix2 p k))
    (h1 : ∀ k : Fin 256, x1 (ix2 k q) = A1 (ix2 k q'))
    (h2 : x2 (ix2 (0 : Fin 1) q) = A2 (ix2 (0 : Fin 1) q'))
    (h3 : x3 (ix2 r q) = A3 (ix2 p q')) :
    (k0_pay1 x0 x1 x2 x3 : S1024x256.Idx → EReal) (ix2 r q) = lin0At A0 A1 A2 A3 p q' := by
  rw [pay_at]
  unfold lin0At
  rw [h2, h3]
  simp only [h0, h1]

/-- What point `t` writes back is block `t` of `G0`. -/
theorem flushed_eq (t : Fin cfg0.N) :
    (dat0 (F := Ideal) V c).flushed 4 t = ((cfg0.win 4).blk t).view.read (Elt Ideal) (G0 V c) := by
  show (cfg0.win 4).cut (grid0.coords t) ((dat0 V c).after 4 t) = _
  rw [after0_4]
  unfold out0
  rw [View.canon_unit_zero hz]
  simp only [View.ld_unit_zero (S := S1024x256) hz, View.ld_unit_zero (S := S256x256) hz, View.ld_unit_zero (S := S1x256) hz]
  funext j
  obtain ⟨r, q, rfl⟩ : ∃ (r : Fin 1024) (q : Fin 256), j = ix2 r q := ⟨j 0, j 1, eq_ix2 j⟩
  obtain ⟨-, -, -, -, -, -, -, -, e0, e1⟩ := idx_facts t
  have ht : t.val < 10 := by have := t.isLt; have hN : cfg0.N = 10 := N_0; omega
  have hemb : ((cfg0.win 4).blk t).view.emb (ix2 r q) = (ix2 (⟨1024 * t.val + r.val, by omega⟩ : Fin 10240) q : S10240x256.Idx) := by
    funext a; apply Fin.ext
    match a with
    | ⟨0, _⟩ => show win0_4.index t (0 : Fin 2) * 1024 + 1 * r.val = 1024 * t.val + r.val; rw [e0]; omega
    | ⟨1, _⟩ => show win0_4.index t (1 : Fin 2) * 256 + 1 * q.val = q.val; rw [e1]; omega
  rw [View.read_apply, hemb]
  show (k0_pay1 (iblk0 V c 0 t) (iblk0 V c 1 t) (iblk0 V c 2 t) (iblk0 V c 3 t) : S1024x256.Idx → EReal) (ix2 r q)
    = lin0At (V c main_v10) (V c main_arg3) (V c main_v31) (V c main_v9) (⟨1024 * t.val + r.val, by omega⟩ : Fin 10240) q
  exact point_eq (iblk0 V c 0 t) (iblk0 V c 1 t) (iblk0 V c 2 t) (iblk0 V c 3 t) (V c main_v10) (V c main_arg3) (V c main_v31) (V c main_v9)
    r q (⟨1024 * t.val + r.val, by omega⟩ : Fin 10240) q
    (fun k => rows_at V c t (ix2 r k) (ix2 (⟨1024 * t.val + r.val, by omega⟩ : Fin 10240) k) rfl rfl)
    (fun k => weight_at V c t (ix2 k q))
    (bias_at V c t (ix2 (0 : Fin 1) q))
    (scal_at V c t (ix2 r q) (ix2 (⟨1024 * t.val + r.val, by omega⟩ : Fin 10240) q) rfl rfl)

/-! ## From the blocks to the array: the ten row blocks tile it -/

/-- An index of the array is in point `t`'s block iff each coordinate is in the block's range on its axis. -/
theorem mem_blk (t : Fin cfg0.N) (i : S10240x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v32).slice (win0_4.rect t)).set ↔ _
  rw [View.set_slice_whole, Rect.mem_set_unit]
  exact Iff.rfl

/-- Row `r` of the array is written back by point `r / 1024`. -/
theorem cover (i : S10240x256.Idx) : ∃ t : Fin cfg0.N, (cfg0.win 4).flush t = true ∧ i ∈ ((cfg0.win 4).blk t).view.set := by
  have hi0 : (i 0).val < 10240 := (i 0).isLt
  have hi1 : (i 1).val < 256 := (i 1).isLt
  have hN : cfg0.N = 10 := N_0
  have ht : (i 0).val / 1024 < cfg0.N := by rw [hN]; omega
  refine ⟨⟨(i 0).val / 1024, ht⟩, flush0_4 _, ?_⟩
  rw [mem_blk]
  obtain ⟨-, -, -, -, -, -, -, -, e0, e1⟩ := idx_facts ⟨(i 0).val / 1024, ht⟩
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_4.index ⟨(i 0).val / 1024, ht⟩ (1 : Fin 2) * 256 ≤ (i 1).val ∧ (i 1).val < win0_4.index ⟨(i 0).val / 1024, ht⟩ (1 : Fin 2) * 256 + 256
    rw [e1]; omega

/-- The output array after the region is `G0`. -/
theorem arr0_eq : (dat0 (F := Ideal) V c).arrAt 4 cfg0.N = G0 V c :=
  (dat0 (F := Ideal) V c).arrAt_eq_of_cover 4 (G0 V c) (fun t _ => flushed_eq V c t) cover

/-- The output array after the region, entry by entry. -/
theorem arr0_apply (p : Fin 10240) (q : Fin 256) :
    ((dat0 (F := Ideal) V c).arrAt 4 cfg0.N : S10240x256.Idx → EReal) (ValueIdx.ix2 p q)
      = lin0At (V c main_v10) (V c main_arg3) (V c main_v31) (V c main_v9) p q :=
  congrFun (arr0_eq V c) (ix2 p q)

end Cert.KernelIdeal.Val0

end
-- ==== Proof.KIVal1.lean ====
/-
  What the dense adjacency product leaves in its output array, over the extended reals, as one function of the three
  arrays it reads: with a the 10240 × 10240 matrix, s the 10240 × 256 activations and d the 10240 × 256 normalisation,
  the output at (p, q) is (Σ_k a (p, k) · s (k, q)) · d (p, q).

  The grid is 10 row blocks of 1024 rows by 5 column blocks of 2048 columns. Within a row block the accumulator after
  column block k holds, at (r, q), the sum over the first 2048 · (k + 1) columns κ of a (1024 i + r, κ) · s (κ, q): zero
  plus the first block's product at k = 0, the previous sum plus this block's product afterwards (addition on the
  extended reals is commutative and associative, so five block sums are one sum); at k = 4 the output block is that
  sum times d, and the output blocks of the ten row blocks tile the array.
-/
import proofs.«430833_j68839735821095_2_alg».proof.Proof.KIReg1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Val1

open Cert.KernelIdeal Cert.KernelIdeal.Gen Cert.KernelIdeal.Reg
open Idealize.ShloMosaic Idealize.ShloMosaic.TcCoe Idealize.ShloMosaic.Tactic Idealize.SL.Sem
open Idealize.ShloMosaic.Pipeline (Dat)

/-- The product at (p, q): row p of a against column q of s, times d at (p, q). -/
def spmmAt (a : S10240x10240.Idx → EReal) (s : S10240x256.Idx → EReal) (d : S10240x256.Idx → EReal) (p : Fin 10240) (q : Fin 256) : EReal :=
  (∑ k : Fin 10240, a (ValueIdx.ix2 p k) * s (ValueIdx.ix2 k q)) * d (ValueIdx.ix2 p q)

/-! ## What each control case leaves, as the body's arithmetic of what it was called with -/

section Pieces

variable {F : FTy → Type} [FloatOps F]

/-- Zero offsets on both axes, however spelt. -/
theorem hz : (![0, 0] : Fin 2 → Nat) = fun _ => 0 := funext fun a => by fin_cases a <;> rfl

/-- First column block: the accumulator is zeroed, read back, and the block's product is added to it. -/
theorem sout_A (c : Dev nD) (i : grid1.Coords) (a2 : Memref sig .tc .vmem S1024x2048 .bf16) (h2 : a2.IsWhole) (a3 : Memref sig .tc .vmem S2048x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x256 .f32) (h6 : a6.IsWhole) (hc0 : cond1_0 i) (hc1 : ¬cond1_1 i)
    (x0 : Vec F S1024x2048 .bf16) (x1 : Vec F S2048x256 .bf16) (x2 : Vec F S1024x256 .f32) :
    sout1_A c i a2 h2 a3 h3 a4 h4 a5 h5 a6 h6 hc0 hc1 x0 x1 x2 = k1_pay2 (k1_pay1 (F := F)) x0 x1 := by
  unfold sout1_A
  rw [View.read_writes_eq_canon _ _ _ (scover1_A c i a2 h2 a3 h3 a4 h4 a5 h5 a6 h6 hc0 hc1 x0 x1 x2)]
  unfold kernelRun1_A
  dsimp only
  sl_unfold_words
  rw [View.canon_cons_unit_zero (S := S1024x256) hz, View.readCov_unit_zero (S := S1024x256) _ hz]
  simp only [View.readAt_eq_ld, h2.read_unread, h3.read_unread, View.ld_unit_zero (S := S1024x2048) hz, View.ld_unit_zero (S := S2048x256) hz]

/-- A middle column block: the block's product is added to what the accumulator held. -/
theorem sout_B (c : Dev nD) (i : grid1.Coords) (a2 : Memref sig .tc .vmem S1024x2048 .bf16) (h2 : a2.IsWhole) (a3 : Memref sig .tc .vmem S2048x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x256 .f32) (h6 : a6.IsWhole) (hc0 : ¬cond1_0 i) (hc1 : ¬cond1_1 i)
    (x0 : Vec F S1024x2048 .bf16) (x1 : Vec F S2048x256 .bf16) (x2 : Vec F S1024x256 .f32) (xs : Vec F S1024x256 .f32) :
    sout1_B c i a2 h2 a3 h3 a4 h4 a5 h5 a6 h6 hc0 hc1 x0 x1 x2 xs = k1_pay2 xs x0 x1 := by
  unfold sout1_B
  rw [View.read_writes_eq_canon _ _ _ (scover1_B c i a2 h2 a3 h3 a4 h4 a5 h5 a6 h6 hc0 hc1 x0 x1 x2 xs)]
  unfold kernelRun1_B
  dsimp only
  sl_unfold_words
  rw [View.canon_unit_zero hz]
  simp only [View.readAt_eq_ld, h2.read_unread, h3.read_unread, h6.read_unread, View.ld_unit_zero (S := S1024x256) hz, View.ld_unit_zero (S := S1024x2048) hz, View.ld_unit_zero (S := S2048x256) hz]

/-- The last column block leaves the accumulator as a middle one does, -/
theorem sout_C (c : Dev nD) (i : grid1.Coords) (a2 : Memref sig .tc .vmem S1024x2048 .bf16) (h2 : a2.IsWhole) (a3 : Memref sig .tc .vmem S2048x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x256 .f32) (h6 : a6.IsWhole) (hc0 : ¬cond1_0 i) (hc1 : cond1_1 i)
    (x0 : Vec F S1024x2048 .bf16) (x1 : Vec F S2048x256 .bf16) (x2 : Vec F S1024x256 .f32) (xs : Vec F S1024x256 .f32) :
    sout1_C c i a2 h2 a3 h3 a4 h4 a5 h5 a6 h6 hc0 hc1 x0 x1 x2 xs = k1_pay2 xs x0 x1 := by
  unfold sout1_C
  rw [View.read_writes_eq_canon _ _ _ (scover1_C c i a2 h2 a3 h3 a4 h4 a5 h5 a6 h6 hc0 hc1 x0 x1 x2 xs)]
  unfold kernelRun1_C
  dsimp only
  sl_unfold_words
  rw [View.canon_unit_zero hz]
  simp only [View.readAt_eq_ld, h2.read_unread, h3.read_unread, h6.read_unread, View.ld_unit_zero (S := S1024x256) hz, View.ld_unit_zero (S := S1024x2048) hz, View.ld_unit_zero (S := S2048x256) hz]

/-- and stores into the output block that accumulator times the normalisation block. -/
theorem out_C (c : Dev nD) (i : grid1.Coords) (a2 : Memref sig .tc .vmem S1024x2048 .bf16) (h2 : a2.IsWhole) (a3 : Memref sig .tc .vmem S2048x256 .bf16) (h3 : a3.IsWhole) (a4 : Memref sig .tc .vmem S1024x256 .f32) (h4 : a4.IsWhole) (a5 : Memref sig .tc .vmem S1024x256 .f32) (h5 : a5.IsWhole) (a6 : Memref sig .tc .vmem S1024x256 .f32) (h6 : a6.IsWhole) (hc0 : ¬cond1_0 i) (hc1 : cond1_1 i)
    (x0 : Vec F S1024x2048 .bf16) (x1 : Vec F S2048x256 .bf16) (x2 : Vec F S1024x256 .f32) (xs : Vec F S1024x256 .f32) :
    out1_C c i a2 h2 a3 h3 a4 h4 a5 h5 a6 h6 hc0 hc1 x0 x1 x2 xs = k1_pay3 (k1_pay2 xs x0 x1) x2 := by
  unfold out1_C
  rw [View.read_writes_eq_canon _ _ _ (cover1_C c i a2 h2 a3 h3 a4 h4 a5 h5 a6 h6 hc0 hc1 x0 x1 x2 xs)]
  unfold kernelRun1_C
  dsimp only
  sl_unfold_words
  rw [View.canon_unit_zero hz]
  simp only [View.readCov_unit_zero (S := S1024x256) _ hz, View.readAt_eq_ld, h2.read_unread, h3.read_unread, h4.read_unread, h6.read_unread, View.ld_unit_zero (S := S1024x256) hz, View.ld_unit_zero (S := S1024x2048) hz, View.ld_unit_zero (S := S2048x256) hz]

end Pieces

/-! ## The body's arithmetic at an index, over the extended reals -/

section Payloads

open ValueIdx

/-- The zero block is zero everywhere. -/
theorem pay1_apply (r : Fin 1024) (q : Fin 256) : (k1_pay1 (F := Ideal) : S1024x256.Idx → EReal) (ix2 r q) = 0 := by
  unfold k1_pay1
  simp only [shapeCast_self]
  exact Ideal.ofBits_zero_f32

theorem lhs_dot_0 (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_dot_1 (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k
theorem rhs_dot_0 (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k
theorem rhs_dot_1 (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The block product into a zero accumulator, at (r, q): row r of the left block against column q of the right. -/
theorem mm_apply (a : FVec Ideal S1024x2048 .bf16) (s : FVec Ideal S2048x256 .bf16) (r : Fin 1024) (q : Fin 256) :
    (matmul dot_S1024x2048_S2048x256_S1024x256_1_0_0_1_n_n none a s (constant S1024x256 .f32 0x00000000#32) : S1024x256.Idx → EReal) (ix2 r q)
      = ∑ k : Fin 2048, a (ix2 r k) * s (ix2 k q) := by
  simp only [matmul]
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 r q) ((ValueIdx.contrEquiv1 dot_S1024x2048_S2048x256_S1024x256_1_0_0_1_n_n 2048 rfl rfl).symm k) = ix2 r k := funext fun b => Fin.ext (by
    match b with
    | ⟨0, _⟩ => exact lhs_dot_0 _ _
    | ⟨1, _⟩ => exact (lhs_dot_1 _ _).trans hk)
  have er : dot_S1024x2048_S2048x256_S1024x256_1_0_0_1_n_n.rhsIdx (ix2 r q) ((ValueIdx.contrEquiv1 dot_S1024x2048_S2048x256_S1024x256_1_0_0_1_n_n 2048 rfl rfl).symm k) = ix2 k q := funext fun b => Fin.ext (by
    match b with
    | ⟨0, _⟩ => exact (rhs_dot_0 _ _).trans hk
    | ⟨1, _⟩ => exact rhs_dot_1 _ _)
  rw [el, er]

/-- The accumulate step at (r, q): what was there plus the block product there. -/
theorem pay2_apply (acc : Vec Ideal S1024x256 .f32) (a : Vec Ideal S1024x2048 .bf16) (s : Vec Ideal S2048x256 .bf16) (r : Fin 1024) (q : Fin 256) :
    (k1_pay2 (F := Ideal) acc a s : S1024x256.Idx → EReal) (ix2 r q) = acc (ix2 r q) + ∑ k : Fin 2048, a (ix2 r k) * s (ix2 k q) := by
  unfold k1_pay2
  simp only [shapeCast_self]
  exact congrArg (acc (ix2 r q) + ·) (mm_apply a s r q)

/-- The final scaling at (r, q). -/
theorem pay3_apply (acc : Vec Ideal S1024x256 .f32) (d : Vec Ideal S1024x256 .f32) (r : Fin 1024) (q : Fin 256) :
    (k1_pay3 (F := Ideal) acc d : S1024x256.Idx → EReal) (ix2 r q) = acc (ix2 r q) * d (ix2 r q) := by
  unfold k1_pay3
  simp only [shapeCast_self]
  rfl

end Payloads

/-! ## Partial sums of one row against one column -/

section Sums

open ValueIdx

/-- The κ-th term of row p of a against column q of s (zero past the last column). -/
def term (a : S10240x10240.Idx → EReal) (s : S10240x256.Idx → EReal) (p : Fin 10240) (q : Fin 256) (κ : ℕ) : EReal :=
  if h : κ < 10240 then a (ix2 p ⟨κ, h⟩) * s (ix2 ⟨κ, h⟩ q) else 0

/-- The sum of the first n terms. -/
def psum (a : S10240x10240.Idx → EReal) (s : S10240x256.Idx → EReal) (p : Fin 10240) (q : Fin 256) (n : ℕ) : EReal :=
  ∑ κ ∈ Finset.range n, term a s p q κ

theorem psum_zero (a : S10240x10240.Idx → EReal) (s : S10240x256.Idx → EReal) (p : Fin 10240) (q : Fin 256) :
    psum a s p q 0 = 0 := by
  unfold psum; rw [Finset.range_zero, Finset.sum_empty]

/-- Adding a block of 2048 columns that starts at column n: the blocks' entries are the arrays' entries there. -/
theorem psum_block (a : S10240x10240.Idx → EReal) (s : S10240x256.Idx → EReal) (p : Fin 10240) (q : Fin 256) (n : ℕ)
    (hn : n + 2048 ≤ 10240) (L R : Fin 2048 → EReal)
    (hL : ∀ k : Fin 2048, L k = a (ix2 p ⟨n + k.val, by have := k.isLt; omega⟩))
    (hR : ∀ k : Fin 2048, R k = s (ix2 ⟨n + k.val, by have := k.isLt; omega⟩ q)) :
    psum a s p q n + ∑ k : Fin 2048, L k * R k = psum a s p q (n + 2048) := by
  unfold psum
  rw [Finset.sum_range_add, Finset.sum_range (fun x => term a s p q (n + x))]
  refine congrArg (_ + ·) (Finset.sum_congr rfl fun k _ => ?_)
  unfold term
  rw [dif_pos (by have := k.isLt; omega), hL k, hR k]

/-- All 10240 terms are the whole row against the whole column. -/
theorem psum_full (a : S10240x10240.Idx → EReal) (s : S10240x256.Idx → EReal) (p : Fin 10240) (q : Fin 256) :
    psum a s p q 10240 = ∑ k : Fin 10240, a (ix2 p k) * s (ix2 k q) := by
  unfold psum
  rw [Finset.sum_range]
  refine Finset.sum_congr rfl fun k _ => ?_
  unfold term
  rw [dif_pos k.isLt]

end Sums

/-! ## The blocks of the three arrays the body is called with -/

section Blocks

open ValueIdx

variable (V : (c : Dev nD) → (b : Ref sig .tc) → Buf (Elt Ideal) ((c : Thread nD τ).loc b)) (c : Dev nD)

/-- The three arrays as the region finds them, -/
abbrev aArr : S10240x10240.Idx → EReal := V c main_v30
abbrev sArr : S10240x256.Idx → EReal := V c main_v32
abbrev dArr : S10240x256.Idx → EReal := V c main_v9
/-- and their blocks at a point. -/
abbrev aBlk (t : Fin cfg1.N) : Vec Ideal S1024x2048 .bf16 := iblk1 V c 0 t
abbrev sBlk (t : Fin cfg1.N) : Vec Ideal S2048x256 .bf16 := iblk1 V c 1 t
abbrev dBlk (t : Fin cfg1.N) : Vec Ideal S1024x256 .f32 := iblk1 V c 2 t

/-- The windows' block indices at point t = 5 i + j: (i, j), (j, 0), (i, 0), (i, 0). -/
theorem idx_facts : ∀ t : Fin cfg1.N, win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = t.val / 5 ∧ win1_2.index t (1 : Fin 2) = 0
    ∧ win1_3.index t (0 : Fin 2) = t.val / 5 ∧ win1_3.index t (1 : Fin 2) = 0 :=
  (by decide +kernel : ∀ t : Fin grid1.N, _)

/-- At point 5 i + j the matrix block at (r, k) is the matrix at (1024 i + r, 2048 j + k). -/
theorem aBlk_apply (t : Fin cfg1.N) (r : Fin 1024) (k : Fin 2048) (p : Fin 10240) (κ : Fin 10240)
    (hp : p.val = 1024 * (t.val / 5) + r.val) (hκ : κ.val = 2048 * (t.val % 5) + k.val) :
    (aBlk V c t : S1024x2048.Idx → EReal) (ix2 r k) = aArr V c (ix2 p κ) := by
  show V c main_v30 (((cfg1.win 0).blk t).view.emb (ix2 r k)) = V c main_v30 (ix2 p κ)
  obtain ⟨e0, e1, -⟩ := idx_facts t
  refine congrArg _ (funext fun b => Fin.ext ?_)
  match b with
  | ⟨0, _⟩ => show win1_0.index t (0 : Fin 2) * 1024 + 1 * r.val = p.val; rw [e0, hp]; omega
  | ⟨1, _⟩ => show win1_0.index t (1 : Fin 2) * 2048 + 1 * k.val = κ.val; rw [e1, hκ]; omega

/-- At point 5 i + j the activations' block at (k, q) is the activations at (2048 j + k, q). -/
theorem sBlk_apply (t : Fin cfg1.N) (k : Fin 2048) (q : Fin 256) (κ : Fin 10240)
    (hκ : κ.val = 2048 * (t.val % 5) + k.val) :
    (sBlk V c t : S2048x256.Idx → EReal) (ix2 k q) = sArr V c (ix2 κ q) := by
  show V c main_v32 (((cfg1.win 1).blk t).view.emb (ix2 k q)) = V c main_v32 (ix2 κ q)
  obtain ⟨-, -, e0, e1, -⟩ := idx_facts t
  refine congrArg _ (funext fun b => Fin.ext ?_)
  match b with
  | ⟨0, _⟩ => show win1_1.index t (0 : Fin 2) * 2048 + 1 * k.val = κ.val; rw [e0, hκ]; omega
  | ⟨1, _⟩ => show win1_1.index t (1 : Fin 2) * 256 + 1 * q.val = q.val; rw [e1]; omega

/-- At point 5 i + j the normalisation's block at (r, q) is the normalisation at (1024 i + r, q). -/
theorem dBlk_apply (t : Fin cfg1.N) (r : Fin 1024) (q : Fin 256) (p : Fin 10240)
    (hp : p.val = 1024 * (t.val / 5) + r.val) :
    (dBlk V c t : S1024x256.Idx → EReal) (ix2 r q) = dArr V c (ix2 p q) := by
  show V c main_v9 (((cfg1.win 2).blk t).view.emb (ix2 r q)) = V c main_v9 (ix2 p q)
  obtain ⟨-, -, -, -, e0, e1, -⟩ := idx_facts t
  refine congrArg _ (funext fun b => Fin.ext ?_)
  match b with
  | ⟨0, _⟩ => show win1_2.index t (0 : Fin 2) * 1024 + 1 * r.val = p.val; rw [e0, hp]; omega
  | ⟨1, _⟩ => show win1_2.index t (1 : Fin 2) * 256 + 1 * q.val = q.val; rw [e1]; omega

end Blocks

/-! ## The accumulator and the output buffer after each point -/

section Invariant

open ValueIdx

variable (V : (c : Dev nD) → (b : Ref sig .tc) → Buf (Elt Ideal) ((c : Thread nD τ).loc b)) (c : Dev nD)

/-- After a first column block: zero plus the block product. -/
theorem acc_A (t : Fin cfg1.N) (h0 : t.val % 5 = 0) (h1 : ¬t.val % 5 = 4) :
    (outsAt1 V c t.val t.isLt).2 = k1_pay2 (k1_pay1 (F := Ideal)) (aBlk V c t) (sBlk V c t) := by
  rw [outsAt1_A V c t h0 h1]
  dsimp only
  exact sout_A (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)

/-- After a middle column block: what the point before left plus the block product. -/
theorem acc_B (t : Fin cfg1.N) (h0 : ¬t.val % 5 = 0) (h1 : ¬t.val % 5 = 4) :
    (outsAt1 V c t.val t.isLt).2 = k1_pay2 (outsAt1 V c (t.val - 1) (Nat.lt_of_le_of_lt (Nat.sub_le _ _) t.isLt)).2 (aBlk V c t) (sBlk V c t) := by
  rw [outsAt1_B V c t h0 h1]
  dsimp only
  exact sout_B (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- After the last column block: likewise, -/
theorem acc_C (t : Fin cfg1.N) (h0 : ¬t.val % 5 = 0) (h1 : t.val % 5 = 4) :
    (outsAt1 V c t.val t.isLt).2 = k1_pay2 (outsAt1 V c (t.val - 1) (Nat.lt_of_le_of_lt (Nat.sub_le _ _) t.isLt)).2 (aBlk V c t) (sBlk V c t) := by
  rw [outsAt1_C V c t h0 h1]
  dsimp only
  exact sout_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-- and the output buffer holds that accumulator times the normalisation block. -/
theorem res_C (t : Fin cfg1.N) (h0 : ¬t.val % 5 = 0) (h1 : t.val % 5 = 4) :
    (outsAt1 V c t.val t.isLt).1 = k1_pay3 (k1_pay2 (outsAt1 V c (t.val - 1) (Nat.lt_of_le_of_lt (Nat.sub_le _ _) t.isLt)).2 (aBlk V c t) (sBlk V c t)) (dBlk V c t) := by
  rw [outsAt1_C V c t h0 h1]
  dsimp only
  exact out_C (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

/-- One step of the accumulation at point n, in row p = 1024 (n / 5) + r: a partial sum over the first 2048 (n % 5)
    columns plus the block product is the partial sum over the first 2048 (n % 5 + 1). -/
theorem step_sum (n : ℕ) (hn : n < cfg1.N) (r : Fin 1024) (q : Fin 256) (p : Fin 10240) (hp : p.val = 1024 * (n / 5) + r.val)
    (acc : EReal) (hacc : acc = psum (aArr V c) (sArr V c) p q (2048 * (n % 5))) :
    acc + ∑ k : Fin 2048, (aBlk V c ⟨n, hn⟩ : S1024x2048.Idx → EReal) (ix2 r k) * (sBlk V c ⟨n, hn⟩ : S2048x256.Idx → EReal) (ix2 k q)
      = psum (aArr V c) (sArr V c) p q (2048 * (n % 5 + 1)) := by
  have hN : n < 50 := lt_of_lt_of_eq hn (show cfg1.N = 50 from N_1)
  rw [hacc, show 2048 * (n % 5 + 1) = 2048 * (n % 5) + 2048 from by omega]
  exact psum_block (aArr V c) (sArr V c) p q (2048 * (n % 5)) (by omega)
    (fun k => (aBlk V c ⟨n, hn⟩ : S1024x2048.Idx → EReal) (ix2 r k)) (fun k => (sBlk V c ⟨n, hn⟩ : S2048x256.Idx → EReal) (ix2 k q))
    (fun k => aBlk_apply V c ⟨n, hn⟩ r k p ⟨2048 * (n % 5) + k.val, by have := k.isLt; omega⟩ hp rfl)
    (fun k => sBlk_apply V c ⟨n, hn⟩ k q ⟨2048 * (n % 5) + k.val, by have := k.isLt; omega⟩ rfl)

/-- THE INVARIANT: after point n = 5 i + k the accumulator holds, at (r, q), the partial sum of row 1024 i + r against
    column q over the first 2048 (k + 1) columns. -/
theorem acc_inv (n : ℕ) : ∀ (hn : n < cfg1.N) (r : Fin 1024) (q : Fin 256) (p : Fin 10240), p.val = 1024 * (n / 5) + r.val →
    ((outsAt1 V c n hn).2 : S1024x256.Idx → EReal) (ix2 r q) = psum (aArr V c) (sArr V c) p q (2048 * (n % 5 + 1)) := by
  induction n using Nat.strong_induction_on with
  | _ n ih =>
    intro hn r q p hp
    by_cases h0 : n % 5 = 0
    · have h1 : ¬n % 5 = 4 := by omega
      rw [show (outsAt1 V c n hn).2 = _ from acc_A V c ⟨n, hn⟩ h0 h1, pay2_apply, pay1_apply]
      exact step_sum V c n hn r q p hp 0 (by rw [h0]; exact (psum_zero _ _ p q).symm)
    · have hprev := ih (n - 1) (by omega) (Nat.lt_of_le_of_lt (Nat.sub_le _ _) hn) r q p (by rw [hp]; omega)
      have hcols : 2048 * ((n - 1) % 5 + 1) = 2048 * (n % 5) := by omega
      rw [hcols] at hprev
      by_cases h1 : n % 5 = 4
      · rw [show (outsAt1 V c n hn).2 = _ from acc_C V c ⟨n, hn⟩ h0 h1, pay2_apply]
        exact step_sum V c n hn r q p hp _ hprev
      · rw [show (outsAt1 V c n hn).2 = _ from acc_B V c ⟨n, hn⟩ h0 h1, pay2_apply]
        exact step_sum V c n hn r q p hp _ hprev

/-- So at a last column block the output buffer holds, at (r, q), the whole product at (1024 i + r, q). -/
theorem res_apply (t : Fin cfg1.N) (h4 : t.val % 5 = 4) (r : Fin 1024) (q : Fin 256) (p : Fin 10240)
    (hp : p.val = 1024 * (t.val / 5) + r.val) :
    ((outsAt1 V c t.val t.isLt).1 : S1024x256.Idx → EReal) (ix2 r q) = spmmAt (aArr V c) (sArr V c) (dArr V c) p q := by
  have h0 : ¬t.val % 5 = 0 := by omega
  have hacc := acc_inv V c t.val t.isLt r q p hp
  rw [show (outsAt1 V c t.val t.isLt).2 = _ from acc_C V c t h0 h4] at hacc
  rw [show (outsAt1 V c t.val t.isLt).1 = _ from res_C V c t h0 h4, pay3_apply, dBlk_apply V c t r q p hp, hacc,
    show 2048 * (t.val % 5 + 1) = 10240 from by omega, psum_full]
  rfl

end Invariant

/-! ## From the blocks to the array -/

section Final

open ValueIdx

variable (V : (c : Dev nD) → (b : Ref sig .tc) → Buf (Elt Ideal) ((c : Thread nD τ).loc b)) (c : Dev nD)

/-- The output array as one function of the three arrays the region reads. -/
abbrev result : S10240x256.Idx → EReal := fun i => spmmAt (aArr V c) (sArr V c) (dArr V c) (i 0) (i 1)

/-- What a point of a last column block writes back is its block of that function: the output block of row block i
    sits at rows 1024 i … 1024 i + 1023, all 256 columns. -/
theorem flushed_eq (t : Fin cfg1.N) (hf : (cfg1.win 3).flush t = true) :
    (dat1 (F := Ideal) V c).flushed 3 t = ((cfg1.win 3).blk t).view.read (Elt Ideal) (result V c) := by
  have h4 : t.val % 5 = 4 := (flush1_3 t).mp hf
  have hN : t.val < 50 := lt_of_lt_of_eq t.isLt (show cfg1.N = 50 from N_1)
  obtain ⟨-, -, -, -, -, -, e0, e1⟩ := idx_facts t
  show (cfg1.win 3).cut (grid1.coords t) ((dat1 V c).after 3 t) = _
  rw [after1_3]
  funext j
  have hj0 : (j 0).val < 1024 := (j 0).isLt
  show ((outsAt1 V c t.val t.isLt).1 : S1024x256.Idx → EReal) j = result V c (((cfg1.win 3).blk t).view.emb j)
  refine (congrArg ((outsAt1 V c t.val t.isLt).1 : S1024x256.Idx → EReal) (eq_ix2 j)).trans ?_
  refine (res_apply V c t h4 (j 0) (j 1) ⟨1024 * (t.val / 5) + (j 0).val, by omega⟩ rfl).trans ?_
  refine congrArg₂ (spmmAt (aArr V c) (sArr V c) (dArr V c)) (Fin.ext ?_) (Fin.ext ?_)
  · show 1024 * (t.val / 5) + (j 0).val = win1_3.index t (0 : Fin 2) * 1024 + 1 * (j 0).val
    rw [e0]; omega
  · show (j 1).val = win1_3.index t (1 : Fin 2) * 256 + 1 * (j 1).val
    rw [e1]; omega

/-- An index of the array is in point t's output block iff each coordinate is in the block's range on its axis. -/
theorem mem_blk (t : Fin cfg1.N) (i : S10240x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v33).slice (win1_3.rect t)).set ↔ _
  rw [View.set_slice_whole, Rect.mem_set_unit]
  exact Iff.rfl

/-- Row ρ is written back by the last column block of its row block: point 5 (ρ / 1024) + 4. -/
theorem cover (i : S10240x256.Idx) : ∃ t : Fin cfg1.N, (cfg1.win 3).flush t = true ∧ i ∈ ((cfg1.win 3).blk t).view.set := by
  have h0 : (i 0).val < 10240 := (i 0).isLt
  have h1 : (i 1).val < 256 := (i 1).isLt
  have hN : cfg1.N = 50 := N_1
  obtain ⟨t, ht⟩ : ∃ t : Fin cfg1.N, t.val = 5 * ((i 0).val / 1024) + 4 := ⟨⟨5 * ((i 0).val / 1024) + 4, by rw [hN]; omega⟩, rfl⟩
  obtain ⟨-, -, -, -, -, -, e0, e1⟩ := idx_facts t
  refine ⟨t, (flush1_3 t).mpr (by rw [ht]; omega), ?_⟩
  rw [mem_blk]
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 256 ≤ (i 1).val ∧ (i 1).val < win1_3.index t (1 : Fin 2) * 256 + 256
    rw [e1]; omega

/-- The output array after the region is that function. -/
theorem arr1_eq : (dat1 (F := Ideal) V c).arrAt 3 cfg1.N = result V c :=
  (dat1 (F := Ideal) V c).arrAt_eq_of_cover 3 (result V c) (flushed_eq V c) cover

/-- At (p, q): row p of the matrix against column q of the activations, times the normalisation at (p, q). -/
theorem arr1_apply (p : Fin 10240) (q : Fin 256) :
    ((dat1 (F := Ideal) V c).arrAt 3 cfg1.N : S10240x256.Idx → EReal) (ValueIdx.ix2 p q)
      = spmmAt (V c main_v30) (V c main_v32) (V c main_v9) p q :=
  congrFun (arr1_eq V c) (ix2 p q)

end Final

end Cert.KernelIdeal.Val1

end
-- ==== Proof.Spec.lean ====
/-
  The graph-convolution layer as functions of its five inputs, over the extended reals: the edge lists `row`, `col`
  (320000 words each), the features X (10000 × 256), the weights W (256 × 256) and the bias b (256).

  `layerAt` is the layer as the reference arranges it: with dinv n = (1 + #{e : col e = n})^(-1/2) and
  scaled n j = (Σ_d X n d · W d j + b j) · dinv n, the output at (p, q) is
  (Σ_{e : row e = p} scaled (col e) q + scaled p q) · dinv p.

  `kernelOut` is the same layer as the kernel arranges it: a dense 10240 × 10240 matrix of edge counts with a unit
  diagonal on the first 10000 nodes (`adj`), the features and the scaling padded with zeros to 10240 rows
  (`xpad`, `dpad`), and the output at (p, q) the row p of that matrix against column q of the padded scaled
  activations, scaled by dinv p once more.
-/
import Idealize.ShloMosaic.PureOps.Ideal
import Idealize.ShloMosaic.Lib.ValueIdx

noncomputable section

namespace Cert.Spec

open Idealize.ShloMosaic Idealize.ShloMosaic.ValueIdx

abbrev SEdges : Shape := ⟨1, ![320000]⟩
abbrev SFeat : Shape := ⟨2, ![10000, 256]⟩
abbrev SWeight : Shape := ⟨2, ![256, 256]⟩
abbrev SBias : Shape := ⟨1, ![256]⟩

variable (row col : SEdges.Idx → BitVec 32) (X : SFeat.Idx → EReal) (W : SWeight.Idx → EReal) (b : SBias.Idx → EReal)

/-- The number of edges whose target (`col`) is node `n`. -/
def inDeg (n : ℕ) : ℕ := (Finset.univ.filter fun e : SEdges.Idx => (col e).toNat = n).card

/-- The normalisation of node `n`: (1 + in-degree)^(-1/2). -/
def dinv (n : ℕ) : EReal := Ideal.rsqrt (((1 + (inDeg col n : ℝ) : ℝ)) : EReal)

/-- The linear layer at node `n`, output column `j`. -/
def lin (n : Fin 10000) (j : Fin 256) : EReal := (∑ d : Fin 256, X (ix2 n d) * W (ix2 d j)) + b (ix1 j)

/-- The right-scaled activations, zero beyond the last node. -/
def scaled (n : ℕ) (j : Fin 256) : EReal := if h : n < 10000 then lin X W b ⟨n, h⟩ j * dinv col n else 0

/-- The layer's output at node `p`, column `q`: the messages along the edges into `p`, the self loop, the left scaling. -/
def layerAt (p : Fin 10000) (q : Fin 256) : EReal :=
  ((∑ e : SEdges.Idx, if (row e).toNat = p.val then scaled col X W b (col e).toNat q else 0) + scaled col X W b p.val q)
    * dinv col p.val

/-- The layer as an array. -/
def layer : SFeat.Idx → EReal := fun i => layerAt row col X W b (i 0) (i 1)

/-! ## The kernel's arrangement -/

/-- The dense adjacency with self loops: the number of edges from `k` into `i`, plus one on the diagonal of the first
    10000 nodes. -/
def adj (i k : ℕ) : ℕ :=
  (Finset.univ.filter fun e : SEdges.Idx => (row e).toNat = i ∧ (col e).toNat = k).card + (if i = k ∧ i < 10000 then 1 else 0)

/-- The features padded with zero rows to 10240. -/
def xpad (n : Fin 10240) (d : Fin 256) : EReal := if h : n.val < 10000 then X (ix2 ⟨n.val, h⟩ d) else 0

/-- The normalisation padded with zeros to 10240. -/
def dpad (n : Fin 10240) : EReal := if n.val < 10000 then dinv col n.val else 0

/-- The kernel's first stage: the linear layer of the padded features, right-scaled by the padded normalisation. -/
def kscaled (k : Fin 10240) (j : Fin 256) : EReal :=
  ((∑ d : Fin 256, xpad X k d * W (ix2 d j)) + b (ix1 j)) * dpad col k

/-- The kernel's second stage at node `p` (one of the first 10000 rows), column `q`. -/
def kernelOut (p : Fin 10000) (q : Fin 256) : EReal :=
  (∑ k : Fin 10240, ((adj row col p.val k.val : ℝ) : EReal) * kscaled col X W b k q) * dpad col ⟨p.val, by omega⟩

end Cert.Spec

end
-- ==== Proof.KIHost.lean ====
/-
  What the host operations of the kernel program compute, over the extended reals, read at an index: the features
  padded with 240 zero rows, the weights and the bias row as launched, the inverse square-root degrees padded with
  zeros and laid along every column, and the final cut back to the first 10000 rows.
-/
import proofs.«430833_j68839735821095_2_alg».proof.Proof.Spec
import proofs.«430833_j68839735821095_2_alg».proof.Proof.Gen.KernelIdeal.Regions
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StableHlo.Run
import Idealize.ShloMosaic.Lib.StableHlo.Predicate
import Idealize.ShloMosaic.PureOps.Ideal.Laws

noncomputable section

namespace Cert.KernelIdeal.HostValue

open Cert.KernelIdeal Cert.KernelIdeal.Gen
open Idealize.ShloMosaic Idealize.ShloMosaic.TcCoe

variable (m : (ℓ : Loc nD τ sig) → Buf (Elt Ideal) ℓ) (c : Dev nD)

/-! ## The features, the weights, the bias -/

/-- The padded features: the launched features on the first 10000 rows, the fill — the word zero converted, zero —
    on the 240 rows after them. -/
theorem V5_xpad (n : Fin 10240) (d : Fin 256) :
    (V5 m c main_v10 : S10240x256.Idx → EReal) (ValueIdx.ix2 n d)
      = Cert.Spec.xpad (m ((c : Thread nD τ).loc main_arg2)) n d := by
  have e5 : V5 m c main_v10 = V4 m c main_v10 := V5_of m c main_v10 (by decide)
  have e : (V4 m c main_v10 : S10240x256.Idx → EReal)
      = pad S10240x256 ![0, 0] ![240, 0] ![0, 0] (V3 m c main_arg2 : S10000x256.Idx → EReal)
          (sitofp (F := Ideal) .f32 (V3 m c main_c : IVec S_ 32) : FVec Ideal S_ .f32) pads_S10000x256_S10240x256_02400_000 h_S_ := by
    dsimp only [V4, hostOps0_3]; after_results; try rfl
  have ec : (V3 m c main_c : IVec S_ 32) = constantI S_ 32 0#32 := by
    dsimp only [V3, hostOps0_2]; after_results; try rfl
  have ea : V3 m c main_arg2 = m ((c : Thread nD τ).loc main_arg2) :=
    (V3_of m c main_arg2 (by decide)).trans <| (V2_of m c main_arg2 (by decide)).trans <| (V1_of m c main_arg2 (by decide)).trans rfl
  rw [e5, e, ec, ea]
  unfold Cert.Spec.xpad
  by_cases h : n.val < 10000
  · rw [dif_pos h]
    refine pad_apply_of_inside (s := S10000x256) (t := S10240x256) _ _ _ _ _ _ _ _ _ fun a => ?_
    match a with
    | ⟨0, _⟩ => simp
    | ⟨1, _⟩ => simp
  · rw [dif_neg h]
    refine (pad_apply_of_not_inside (s := S10000x256) (t := S10240x256) _ _ _ _ _ _ _ _ (0 : Fin 2) ?_).trans ?_
    · show ¬(0 ≤ n.val ∧ (n.val - 0) % (0 + 1) = 0 ∧ (n.val - 0) / (0 + 1) < 10000)
      omega
    · show (((0#32 : BitVec 32).toInt : ℝ) : EReal) = 0
      simp

/-- No host operation writes the weights. -/
theorem V5_weight : V5 m c main_arg3 = m ((c : Thread nD τ).loc main_arg3) :=
  (V5_of m c main_arg3 (by decide)).trans <| (V4_of m c main_arg3 (by decide)).trans <| (V3_of m c main_arg3 (by decide)).trans <|
    (V2_of m c main_arg3 (by decide)).trans <| (V1_of m c main_arg3 (by decide)).trans rfl

/-- The bias row is the launched bias, recast from 256 entries to one row of 256. -/
theorem V5_bias (j : Fin 256) :
    (V5 m c main_v31 : S1x256.Idx → EReal) (ValueIdx.ix2 (0 : Fin 1) j)
      = (m ((c : Thread nD τ).loc main_arg4) : S256.Idx → EReal) (ValueIdx.ix1 j) := by
  have e : (V5 m c main_v31 : S1x256.Idx → EReal)
      = shapeCast S1x256 (V4 m c main_arg4 : S256.Idx → EReal) shapeCasts_S256_S1x256 := by
    dsimp only [V5, hostOps0_4]; after_results_simp <;> try rfl
  have e4 : V4 m c main_arg4 = m ((c : Thread nD τ).loc main_arg4) :=
    (V4_of m c main_arg4 (by decide)).trans <| (V3_of m c main_arg4 (by decide)).trans <|
      (V2_of m c main_arg4 (by decide)).trans <| (V1_of m c main_arg4 (by decide)).trans rfl
  rw [e, e4]
  refine shapeCast_apply (s := S256) (t := S1x256) _ _ _ _ ?_
  rw [Shape.rowMajor_val_two, Shape.rowMajor_val_one]
  simp

/-! ## The degree scatter -/

section Degree
open StableHlo.Predicate

/-- A float constant broadcast from a scalar reads the constant's value everywhere. -/
theorem bcast_const {t : Shape} (h : S_.BroadcastsInDim t (![] : Fin 0 → Fin t.rank)) (b : BitVec 32) (i : t.Idx) :
    broadcastInDim t ![] h (constant (F := Ideal) S_ .f32 b) i = Ideal.ofBits .f32 b := rfl

/-- On the one operand axis an update's window starts at its index word, read signed. -/
theorem deg_start (idx : IVec S320000x1 32) (e : S320000.Idx) (a : Fin S10000.rank) :
    scatter_S10000_S320000x1_S320000_n_0_0_1.start e idx a = (idx (ixP (e 0))).toInt := by
  match a with
  | ⟨0, _⟩ =>
    unfold ScatterDims.start
    have h0 : (⟨0, by decide⟩ : Fin S10000.rank) ∈ scatter_S10000_S320000x1_S320000_n_0_0_1.scatterDimsToOperandDims := by decide
    rw [dif_pos h0]
    refine congrArg (fun k => (idx k).toInt) (funext fun b => ?_)
    match b with
    | ⟨0, _⟩ => exact Fin.ext (congrArg (fun k => (e k).val) (Subsingleton.elim _ _))
    | ⟨1, _⟩ => exact Fin.ext rfl

/-- The updates have no window axis: the window coordinate is zero. -/
theorem deg_window (e : S320000.Idx) (a : Fin S10000.rank) :
    scatter_S10000_S320000x1_S320000_n_0_0_1.window e a = 0 := by
  match a with
  | ⟨0, _⟩ =>
    unfold ScatterDims.window
    have h0 : ¬ (⟨0, by decide⟩ : Fin S10000.rank) ∈ scatter_S10000_S320000x1_S320000_n_0_0_1.sKept := by decide
    rw [dif_neg h0]

/-- Update `e` lands on node `i` exactly when its index word, read signed, is `i`. -/
theorem deg_resultIdx (idx : IVec S320000x1 32) (e : S320000.Idx) (i : S10000.Idx) :
    scatter_S10000_S320000x1_S320000_n_0_0_1.resultIdx? e idx = some i ↔ (idx (ixP (e 0))).toInt = ((i 0).val : ℤ) := by
  have hi : (i 0).val < 10000 := (i 0).isLt
  have hsw : ∀ a, scatter_S10000_S320000x1_S320000_n_0_0_1.start e idx a + (scatter_S10000_S320000x1_S320000_n_0_0_1.window e a : ℤ)
      = (idx (ixP (e 0))).toInt := fun a => by rw [deg_start, deg_window, Nat.cast_zero, add_zero]
  unfold ScatterDims.resultIdx?
  by_cases h : ∀ a, 0 ≤ scatter_S10000_S320000x1_S320000_n_0_0_1.start e idx a + (scatter_S10000_S320000x1_S320000_n_0_0_1.window e a : ℤ)
      ∧ scatter_S10000_S320000x1_S320000_n_0_0_1.start e idx a + (scatter_S10000_S320000x1_S320000_n_0_0_1.window e a : ℤ) < S10000.size a
  · rw [dif_pos h]
    have h0 := h ⟨0, by decide⟩
    rw [hsw] at h0
    constructor
    · intro hs
      have hv := congrArg (fun f : S10000.Idx => ((f 0).val : ℤ)) (Option.some.inj hs)
      rw [← hv]
      show _ = (((scatter_S10000_S320000x1_S320000_n_0_0_1.start e idx 0 + (scatter_S10000_S320000x1_S320000_n_0_0_1.window e 0 : ℤ)).toNat : ℕ) : ℤ)
      rw [hsw]
      exact (Int.toNat_of_nonneg h0.1).symm
    · intro hv
      refine congrArg some (funext fun a => ?_)
      match a with
      | ⟨0, _⟩ =>
        refine Fin.ext ?_
        show (scatter_S10000_S320000x1_S320000_n_0_0_1.start e idx ⟨0, _⟩ + (scatter_S10000_S320000x1_S320000_n_0_0_1.window e ⟨0, _⟩ : ℤ)).toNat = (i 0).val
        rw [hsw, hv]; exact Int.toNat_natCast _
  · rw [dif_neg h]
    constructor
    · intro hs; cases hs
    · intro hv
      refine absurd (fun a => ?_) h
      rw [hsw, hv]
      match a with
      | ⟨0, _⟩ => exact ⟨Int.natCast_nonneg _, by show ((i 0).val : ℤ) < ((10000 : ℕ) : ℤ); exact_mod_cast hi⟩

/-- The degree scatter at node `n` — zeros, plus a one from every edge whose target word reads `n` — is the
    number of edges into `n`. -/
theorem deg_count (cola : S320000.Idx → BitVec 32) (n : Fin 10000) :
    Ideal.hostScatterAdd scatter_S10000_S320000x1_S320000_n_0_0_1
        (broadcastInDim S10000 ![] bcast_S_S10000 (constant (F := Ideal) S_ .f32 0x00000000#32))
        (broadcastInDim S320000x1 ![0] bcast_S320000_S320000x1_0 cola)
        (broadcastInDim S320000 ![] bcast_S_S320000 (constant (F := Ideal) S_ .f32 0x3F800000#32)) (ValueIdx.ix1 n)
      = ((Cert.Spec.inDeg cola n.val : ℝ) : EReal) := by
  unfold Ideal.hostScatterAdd Cert.Spec.inDeg
  refine (congrArg₂ (· + ·) (bcast_const _ _ _) (Finset.sum_congr rfl fun x _ => bcast_const _ _ x)).trans ?_
  rw [Ideal.ofBits_zero_f32, Ideal.ofBits_one_f32, zero_add, Finset.sum_const, nsmul_one, EReal.coe_natCast]
  refine congrArg (fun k : ℕ => (k : EReal)) (congrArg Finset.card (Finset.filter_congr fun x _ => ?_))
  have hx : Shape.Idx.ofFin (x 0) = x := funext fun a => by
    have ha : a = 0 := Subsingleton.elim _ _
    subst ha; exact Shape.Idx.ofFin_zero _
  have hb : (broadcastInDim S320000x1 ![0] bcast_S320000_S320000x1_0 cola (ixP (x 0))).toInt = (cola x).toInt :=
    congrArg BitVec.toInt ((bcast_col1 bcast_S320000_S320000x1_0 cola (x 0)).trans (congrArg cola hx))
  refine (deg_resultIdx _ x _).trans ?_
  refine (Eq.congr_left hb).trans ?_
  show (cola x).toInt = ((n.val : ℕ) : ℤ) ↔ (cola x).toNat = n.val
  have h1 := (cola x).isLt
  have h2 := n.isLt
  rw [BitVec.toInt_eq_toNat_cond]
  split <;> omega

/-- The host's inverse square root of a sum, read at an index. -/
theorem hostRsqrt_addf_apply {s : Shape} (a b : FVec Ideal s .f32) (i : s.Idx) :
    Host.rsqrt (addf a b) i = Ideal.rsqrt (a i + b i) := rfl

/-- The host's accumulating scatter over the extended reals is the exact sum of the updates that land. -/
theorem hostScatterAdd_eq {s si u : Shape} (d : ScatterDims s si u) (x : FVec Ideal s .f32) (idx : IVec si 32)
    (upd : FVec Ideal u .f32) : Host.scatterAdd d x idx upd = Ideal.hostScatterAdd d x idx upd := rfl

end Degree

/-! ## The scaling -/

section Dpad
open StableHlo.Predicate

/-- The broadcast scaling: on the first 10000 rows the inverse square root of one plus the number of edges into the
    node, on the 240 rows after them the fill, zero; the same along every column. -/
theorem V5_dpad (n : Fin 10240) (j : Fin 256) :
    (V5 m c main_v9 : S10240x256.Idx → EReal) (ValueIdx.ix2 n j)
      = Cert.Spec.dpad (m ((c : Thread nD τ).loc main_arg1)) n := by
  have e5 : V5 m c main_v9 = V3 m c main_v9 := (V5_of m c main_v9 (by decide)).trans (V4_of m c main_v9 (by decide))
  have e3 : (V3 m c main_v9 : S10240x256.Idx → EReal)
      = broadcastInDim S10240x256 ![0, 1] bcast_S10240x1_S10240x256_0_1
          (broadcastInDim S10240x1 ![0] bcast_S10240_S10240x1_0 (V2 m c main_v7 : S10240.Idx → EReal)) := by
    dsimp only [V3, hostOps0_2]; after_results; try rfl
  have e2 : (V2 m c main_v7 : S10240.Idx → EReal)
      = pad S10240 ![0] ![240] ![0] (V1 m c main_v6 : S10000.Idx → EReal) (V1 m c main_cst_2 : S_.Idx → EReal)
          pads_S10000_S10240_02400 h_S_ := by
    dsimp only [V2, hostOps0_1]; after_results; try rfl
  have e1 : (V1 m c main_v6 : S10000.Idx → EReal)
      = Host.rsqrt (F := Ideal) (addf (F := Ideal) (broadcastInDim S10000 ![] bcast_S_S10000 (constant (F := Ideal) S_ .f32 0x3F800000#32))
          (Host.scatterAdd scatter_S10000_S320000x1_S320000_n_0_0_1
            (broadcastInDim S10000 ![] bcast_S_S10000 (constant (F := Ideal) S_ .f32 0x00000000#32))
            (broadcastInDim S320000x1 ![0] bcast_S320000_S320000x1_0 (m ((c : Thread nD τ).loc main_arg1) : S320000.Idx → BitVec 32))
            (broadcastInDim S320000 ![] bcast_S_S320000 (constant (F := Ideal) S_ .f32 0x3F800000#32)))) := by
    dsimp only [V1, hostOps0]; after_results_simp <;> try rfl
  have ec : (V1 m c main_cst_2 : S_.Idx → EReal) = constant (F := Ideal) S_ .f32 0x00000000#32 := by
    dsimp only [V1, hostOps0]; after_results_simp <;> try rfl
  have hij : ValueIdx.ix2 n j = ij n j := funext fun a => by
    match a with
    | ⟨0, _⟩ => rfl
    | ⟨1, _⟩ => rfl
  rw [e5, e3, hij, bcast_rows, e2]
  unfold Cert.Spec.dpad
  by_cases h : n.val < 10000
  · rw [if_pos h]
    refine (pad_apply_of_inside (s := S10000) (t := S10240) _ _ _ _ _ _ _ _ (ValueIdx.ix1 ⟨n.val, h⟩) fun a => ?_).trans ?_
    · match a with
      | ⟨0, _⟩ => simp
    · rw [e1]
      refine (hostRsqrt_addf_apply _ _ _).trans (congrArg Ideal.rsqrt ?_)
      refine (congrArg₂ (· + ·) (bcast_const _ _ _) (congrFun (hostScatterAdd_eq _ _ _ _) _)).trans ?_
      rw [deg_count, Ideal.ofBits_one_f32, EReal.coe_add, EReal.coe_one]
  · rw [if_neg h]
    refine (pad_apply_of_not_inside (s := S10000) (t := S10240) _ _ _ _ _ _ _ _ (0 : Fin 1) ?_).trans ?_
    · show ¬(0 ≤ n.val ∧ (n.val - 0) % (0 + 1) = 0 ∧ (n.val - 0) / (0 + 1) < 10000)
      omega
    · rw [ec]; exact Ideal.ofBits_zero_f32

end Dpad

/-! ## The final cut -/

/-- The result is the first 10000 rows of what the second region leaves. -/
theorem V8_slice (outs : Outs (F := Ideal)) (p : Fin 10000) (q : Fin 256) :
    (V8 m outs c main_v34 : S10000x256.Idx → EReal) (ValueIdx.ix2 p q)
      = (V7 m outs c main_v33 : S10240x256.Idx → EReal) (ValueIdx.ix2 ⟨p.val, by omega⟩ q) := by
  have e : (V8 m outs c main_v34 : S10000x256.Idx → EReal)
      = extractStridedSlice S10000x256 ![0, 0] (V7 m outs c main_v33 : S10240x256.Idx → EReal) slices_S10240x256_S10000x256_0_0 := by
    dsimp only [V8, hostOps2]; after_results; try rfl
  rw [e]
  refine extractStridedSlice_apply _ _ _ _ _ fun a => ?_
  match a with
  | ⟨0, _⟩ => simp
  | ⟨1, _⟩ => simp

end Cert.KernelIdeal.HostValue

end
-- ==== Proof.KIAdj.lean ====
/-
  The dense adjacency matrix the kernel program's host operations build, read at an index.

  The last host stretch before the first kernel extends each edge list by the node numbers 0, …, 9999 (the self loops),
  wraps a negative word once by 10240, lays the two lists side by side as a 330000 × 2 table of indices, scatters a one
  at every row of the table into a 10240 × 10240 matrix of zero words with the integer sum as the body, and converts
  the words to floats. A scatter whose body is the integer sum and whose updates are ones leaves, at each element,
  the number of updates whose result index is that element; under the bound on the edge words no word is negative and
  every update lands inside the matrix, so that number at (i, k) is the number of edges from k into i plus one on the
  diagonal of the first 10000 nodes, which is far below 2^31 and so survives the conversion as a real.
-/
import proofs.«430833_j68839735821095_2_alg».proof.Proof.Spec
import proofs.«430833_j68839735821095_2_alg».proof.Proof.Gen.KernelIdeal.Regions
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws

set_option maxRecDepth 16384

noncomputable section

namespace Cert.KernelIdeal.AdjValue

open Cert.KernelIdeal Cert.KernelIdeal.Gen
open Idealize.ShloMosaic Idealize.ShloMosaic.TcCoe Idealize.ShloMosaic.ValueIdx

/-! ## A scatter that adds ones counts the updates landing on each element -/

/-- A left fold whose step adds one at the element an update lands on (and leaves everything when it lands nowhere)
    ends, at each element, the start plus the number of updates that landed there. -/
theorem foldl_count {ι κ : Type} [DecidableEq ι] (g : κ → Option ι) (step : (ι → BitVec 32) → κ → ι → BitVec 32)
    (hsome : ∀ r n j, g n = some j → ∀ i', step r n i' = if i' = j then r j + 1#32 else r i')
    (hnone : ∀ r n, g n = none → step r n = r) (l : List κ) (r₀ : ι → BitVec 32) (i : ι) :
    l.foldl step r₀ i = r₀ i + BitVec.ofNat 32 (l.countP fun n => g n = some i) := by
  induction l generalizing r₀ with
  | nil => simp
  | cons n l ih =>
    rw [List.foldl_cons, ih, List.countP_cons]
    cases hg : g n with
    | none =>
      rw [hnone r₀ n hg]
      simp
    | some j =>
      rw [hsome r₀ n j hg i]
      by_cases hij : i = j
      · subst hij
        simp only [if_true, decide_true]
        rw [BitVec.ofNat_add, BitVec.add_assoc, BitVec.add_comm (BitVec.ofNat 32 _)]
      · have : ¬ (some j = some i) := fun h => hij (Option.some.inj h).symm
        simp [hij, this]

/-- The count of a predicate along the list of all positions below `N` is the size of its set. -/
theorem countP_finRange (N : ℕ) (p : Fin N → Prop) [DecidablePred p] :
    (List.finRange N).countP (fun n => decide (p n)) = (Finset.univ.filter p).card := by
  rw [List.countP_eq_length_filter, Fin.univ_def]
  rfl

/-- A scatter of ones with the integer sum as its body: each element ends as its operand's element plus the number of
    update indices whose result index it is, as a word. -/
theorem scatter_addi_ones {s si u : Shape} (d : ScatterDims s si u) (x : s.Idx → BitVec 32) (idx : IVec si 32)
    (upd : u.Idx → BitVec 32) (hupd : ∀ j, upd j = 1#32) (i : s.Idx) :
    Host.scatter d IntOp.addi x idx upd i
      = x i + BitVec.ofNat 32 (Finset.univ.filter fun j : u.Idx => d.resultIdx? j idx = some i).card := by
  unfold Host.scatter
  rw [foldl_count (fun n : Fin u.numel => d.resultIdx? (u.rowMajor.symm n) idx) _ ?_ ?_, countP_finRange]
  · congr 2
    exact Finset.card_equiv u.rowMajor.symm (fun n => by simp)
  · intro r n j hj i'
    simp only [hj, hupd, IntOp.addi]
  · intro r n hn
    simp only [hn]

/-! ## The result index of one update -/

/-- The scatter's dimension numbers: both operand axes are scattered, the index vector lies along the table's axis 1. -/
abbrev dS : ScatterDims S10240x10240 S330000x2 S330000 := scatter_S10240x10240_S330000x2_S330000_n_01_01_1

/-- The start of update `n`'s window on the operand's axis `a` is the table's word at row `n`, column `a`, read signed. -/
theorem start_eq (n : Fin 330000) (idx : IVec S330000x2 32) (a : Fin 2) :
    dS.start (ix1 n) idx a = (idx (ix2 n a)).toInt := by
  unfold ScatterDims.start
  rw [dif_pos (by revert a; decide)]
  refine congrArg (fun t => (idx t).toInt) (funext fun b => ?_)
  match a, b with
  | ⟨0, _⟩, ⟨0, _⟩ => rfl
  | ⟨0, _⟩, ⟨1, _⟩ => rfl
  | ⟨1, _⟩, ⟨0, _⟩ => rfl
  | ⟨1, _⟩, ⟨1, _⟩ => rfl

/-- No operand axis has a window coordinate: both are inserted. -/
theorem window_eq (j : S330000.Idx) (a : Fin 2) : dS.window j a = 0 := by
  unfold ScatterDims.window
  rw [dif_neg (by revert a; decide)]

/-- Update `n` lands on element `i` exactly when the table's row `n` reads, signed, `i`'s two coordinates. -/
theorem resultIdx?_eq_some_iff (n : Fin 330000) (idx : IVec S330000x2 32) (i : S10240x10240.Idx) :
    dS.resultIdx? (ix1 n) idx = some i ↔
      (idx (ix2 n 0)).toInt = ((i 0).val : ℤ) ∧ (idx (ix2 n 1)).toInt = ((i 1).val : ℤ) := by
  have h0 : (i 0).val < 10240 := (i 0).isLt
  have h1 : (i 1).val < 10240 := (i 1).isLt
  have hB : ∀ a : Fin 2, (i a).val < 10240 := Fin.forall_fin_two.2 ⟨h0, h1⟩
  have hsz : ∀ a : Fin 2, S10240x10240.size a = 10240 := Fin.forall_fin_two.2 ⟨rfl, rfl⟩
  unfold ScatterDims.resultIdx?
  split
  · next h =>
    rw [Option.some.injEq]
    constructor
    · intro e
      subst e
      have a0 := h 0; have a1 := h 1
      simp only [start_eq, window_eq] at a0 a1 ⊢
      constructor <;> omega
    · intro e
      have hA : ∀ a : Fin 2, (idx (ix2 n a)).toInt = ((i a).val : ℤ) := Fin.forall_fin_two.2 e
      funext a
      apply Fin.ext
      have := hA a
      simp only [start_eq, window_eq]
      omega
  · next h =>
    constructor
    · intro e; cases e
    · intro e
      have hA : ∀ a : Fin 2, (idx (ix2 n a)).toInt = ((i a).val : ℤ) := Fin.forall_fin_two.2 e
      exfalso; apply h
      intro a
      have := hA a
      have := hB a
      rw [start_eq, window_eq, hsz a]
      omega

/-! ## The index table, read at a row -/

/-- An edge list followed by the node numbers: the 320000 edge words, then 0, 1, …, 9999. -/
def ext (a : IVec S320000 32) : IVec S330000 32 :=
  concatenate S330000 0 [⟨S320000, a⟩, ⟨S10000, iotaInDim S10000 32 0⟩] Gen.concatenates_S320000_S10000_S330000_d0

/-- A negative word wrapped once by the matrix's extent, any other word kept. -/
def wrap (x : IVec S330000 32) : IVec S330000 32 :=
  select (cmpi .slt x (broadcastInDim S330000 ![] Gen.bcast_S_S330000 (constantI S_ 32 0#32)))
    (addi x (broadcastInDim S330000 ![] Gen.bcast_S_S330000 (constantI S_ 32 10240#32))) x

/-- Two lists as the two columns of a table. -/
def tbl (x y : IVec S330000 32) : IVec S330000x2 32 :=
  concatenate S330000x2 1 [⟨S330000x1, broadcastInDim S330000x1 ![0] Gen.bcast_S330000_S330000x1_0 x⟩,
    ⟨S330000x1, broadcastInDim S330000x1 ![0] Gen.bcast_S330000_S330000x1_0 y⟩] Gen.concatenates_S330000x1_S330000x1_S330000x2_d1

theorem ext_apply_lt (a : IVec S320000 32) (n : Fin 330000) (h : n.val < 320000) : ext a (ix1 n) = a (ix1 ⟨n.val, h⟩) := by
  unfold ext
  refine concatenate_pair_apply_left (t := S330000) (s₁ := S320000) (s₂ := S10000) 0 a _ _ (ix1 n) rfl (ix1 ⟨n.val, h⟩) ?_
  intro b
  match b with
  | ⟨0, _⟩ => rfl

theorem ext_apply_ge (a : IVec S320000 32) (n : Fin 330000) (h : 320000 ≤ n.val) :
    ext a (ix1 n) = BitVec.ofNat 32 (n.val - 320000) := by
  unfold ext
  have hn := n.isLt
  refine (concatenate_pair_apply_right (t := S330000) (s₁ := S320000) (s₂ := S10000) 0 a _ _ (ix1 n) rfl rfl
    (ix1 ⟨n.val - 320000, by omega⟩) ?_ ?_).trans ?_
  · intro b hb
    match b with
    | ⟨0, _⟩ => exact absurd rfl hb
  · show (n.val - 320000) + 320000 = n.val
    omega
  · rfl

theorem wrap_apply (x : IVec S330000 32) (j : S330000.Idx) (hx : (x j).toNat < 2 ^ 31) : wrap x j = x j := by
  show Scalar.select (IntOp.cmpi .slt (x j) 0#32) _ (x j) = x j
  have : IntOp.cmpi .slt (x j) 0#32 = 0#1 := by
    unfold IntOp.cmpi
    have : (x j).slt 0#32 = false := by
      rw [BitVec.slt_eq_decide, BitVec.toInt_eq_toNat_of_lt (by omega)]
      simp
    rw [this]; rfl
  rw [this, select_zero]

theorem tbl_apply0 (x y : IVec S330000 32) (n : Fin 330000) : tbl x y (ix2 n 0) = x (ix1 n) := by
  unfold tbl
  refine (concatenate_pair_apply_left (t := S330000x2) (s₁ := S330000x1) (s₂ := S330000x1) 1 _ _ _ (ix2 n 0) rfl (ix2 n 0) ?_).trans ?_
  · intro b
    match b with
    | ⟨0, _⟩ => rfl
    | ⟨1, _⟩ => rfl
  · refine broadcastInDim_apply _ _ x _ (ix1 n) ?_
    intro a
    match a with
    | ⟨0, _⟩ => rfl

theorem tbl_apply1 (x y : IVec S330000 32) (n : Fin 330000) : tbl x y (ix2 n 1) = y (ix1 n) := by
  unfold tbl
  refine (concatenate_pair_apply_right (t := S330000x2) (s₁ := S330000x1) (s₂ := S330000x1) 1 _ _ _ (ix2 n 1) rfl rfl (ix2 n 0) ?_ ?_).trans ?_
  · intro b hb
    match b with
    | ⟨0, _⟩ => rfl
    | ⟨1, _⟩ => exact absurd rfl hb
  · rfl
  · refine broadcastInDim_apply _ _ y _ (ix1 n) ?_
    intro a
    match a with
    | ⟨0, _⟩ => rfl

/-! ## Counting the updates that land on one element -/

/-- A rank-1 index is its coordinate. -/
def idx1Equiv (n : ℕ) : Fin n ≃ (⟨1, ![n]⟩ : Shape).Idx where
  toFun := ix1
  invFun j := j 0
  left_inv _ := rfl
  right_inv j := (eq_ix1 j).symm

theorem card_filter_idx1 (n : ℕ) (p : Fin n → Prop) [DecidablePred p] [DecidablePred fun j : (⟨1, ![n]⟩ : Shape).Idx => p (j 0)] :
    (Finset.univ.filter fun j : (⟨1, ![n]⟩ : Shape).Idx => p (j 0)).card = (Finset.univ.filter p).card :=
  (Finset.card_equiv (idx1Equiv n) (fun x => by
    simp only [Finset.mem_filter, Finset.mem_univ, true_and]; exact Iff.rfl)).symm

theorem card_filter_ix1 (n : ℕ) (q : (⟨1, ![n]⟩ : Shape).Idx → Prop) [DecidablePred q] [DecidablePred fun e : Fin n => q (ix1 e)] :
    (Finset.univ.filter fun e : Fin n => q (ix1 e)).card = (Finset.univ.filter q).card :=
  Finset.card_equiv (idx1Equiv n) (fun x => by
    simp only [Finset.mem_filter, Finset.mem_univ, true_and]; exact Iff.rfl)

theorem card_idx1_le (n : ℕ) (s : Finset (⟨1, ![n]⟩ : Shape).Idx) : s.card ≤ n := by
  refine (Finset.card_le_univ s).trans (le_of_eq ?_)
  rw [← Fintype.card_congr (idx1Equiv n), Fintype.card_fin]

theorem card_filter_split (p : Fin 330000 → Prop) [DecidablePred p] :
    (Finset.univ.filter p).card
      = (Finset.univ.filter fun e : Fin 320000 => p (Fin.castAdd 10000 e)).card
        + (Finset.univ.filter fun t : Fin 10000 => p (Fin.natAdd 320000 t)).card := by
  simp only [Finset.card_filter]
  exact Fin.sum_univ_add (fun n : Fin (320000 + 10000) => if p n then 1 else 0)

/-- Among the node numbers 0, …, 9999 exactly one is both `i` and `k` when these are one node, none otherwise. -/
theorem card_diag (i k : ℕ) :
    (Finset.univ.filter fun t : Fin 10000 => t.val = i ∧ t.val = k).card = if i = k ∧ i < 10000 then 1 else 0 := by
  by_cases h : i = k ∧ i < 10000
  · rw [if_pos h]
    obtain ⟨rfl, hi⟩ := h
    refine Finset.card_eq_one.2 ⟨⟨i, hi⟩, ?_⟩
    ext t
    simp only [Finset.mem_filter, Finset.mem_univ, true_and, Finset.mem_singleton, Fin.ext_iff, and_self]
  · rw [if_neg h]
    refine Finset.card_eq_zero.2 (Finset.filter_eq_empty_iff.2 fun t _ ht => h ⟨ht.1.symm.trans ht.2, ?_⟩)
    rw [← ht.1]; exact t.isLt

/-- The word the extended list holds at position `n`, as a natural number. -/
def rowN (a : IVec S320000 32) (n : ℕ) : ℕ := if h : n < 320000 then (a (ix1 ⟨n, h⟩)).toNat else n - 320000

theorem rowN_lt (a : IVec S320000 32) (e : Fin 320000) : rowN a (Fin.castAdd 10000 e).val = (a (ix1 e)).toNat := by
  unfold rowN
  rw [dif_pos (show (Fin.castAdd 10000 e).val < 320000 from e.isLt)]
  rfl

theorem rowN_ge (a : IVec S320000 32) (t : Fin 10000) : rowN a (Fin.natAdd 320000 t).val = t.val := by
  unfold rowN
  have : (Fin.natAdd 320000 t).val = 320000 + t.val := rfl
  rw [dif_neg (by omega)]
  omega

/-- Under the edge lists' bound no word of the extended list is negative, so the wrap keeps every word. -/
theorem wrap_ext_toInt (a : IVec S320000 32) (ha : ∀ e, (a e).toNat < 10000) (n : Fin 330000) :
    (wrap (ext a) (ix1 n)).toInt = (rowN a n.val : ℤ) := by
  have hn := n.isLt
  unfold rowN
  by_cases h : n.val < 320000
  · have e1 := ext_apply_lt a n h
    have hb := ha (ix1 ⟨n.val, h⟩)
    rw [wrap_apply _ _ (by rw [e1]; omega), e1, dif_pos h, BitVec.toInt_eq_toNat_of_lt (by omega)]
  · have e1 := ext_apply_ge a n (by omega)
    have hm : (BitVec.ofNat 32 (n.val - 320000)).toNat = n.val - 320000 := by
      rw [BitVec.toNat_ofNat]; exact Nat.mod_eq_of_lt (by omega)
    rw [wrap_apply _ _ (by rw [e1, hm]; omega), e1, dif_neg h, BitVec.toInt_eq_toNat_of_lt (by rw [hm]; omega), hm]

/-- The number of updates whose result index is (i, k) is the adjacency count of the specification. -/
theorem count_eq_adj (ra ca : IVec S320000 32) (hrow : ∀ e, (ra e).toNat < 10000) (hcol : ∀ e, (ca e).toNat < 10000)
    (i k : Fin 10240) :
    (Finset.univ.filter fun j : S330000.Idx =>
        dS.resultIdx? j (tbl (wrap (ext ra)) (wrap (ext ca))) = some (ix2 i k)).card
      = Cert.Spec.adj ra ca i.val k.val := by
  have hp : ∀ j : S330000.Idx,
      (dS.resultIdx? j (tbl (wrap (ext ra)) (wrap (ext ca))) = some (ix2 i k))
        ↔ (rowN ra (j 0).val = i.val ∧ rowN ca (j 0).val = k.val) := by
    intro j
    obtain ⟨n, rfl⟩ : ∃ n : Fin 330000, j = ix1 n := ⟨j 0, eq_ix1 j⟩
    rw [resultIdx?_eq_some_iff, tbl_apply0, tbl_apply1, wrap_ext_toInt ra hrow, wrap_ext_toInt ca hcol]
    show ((rowN ra n.val : ℤ) = (i.val : ℤ) ∧ (rowN ca n.val : ℤ) = (k.val : ℤ)) ↔ (rowN ra n.val = i.val ∧ rowN ca n.val = k.val)
    omega
  rw [Finset.filter_congr (fun j _ => hp j),
    card_filter_idx1 330000 (fun n => rowN ra n.val = i.val ∧ rowN ca n.val = k.val), card_filter_split]
  simp only [rowN_lt, rowN_ge]
  rw [card_diag, card_filter_ix1 320000 (fun e => (ra e).toNat = i.val ∧ (ca e).toNat = k.val)]
  unfold Cert.Spec.adj
  with_reducible rfl

/-! ## The matrix as the host operations leave it -/

/-- The last host stretch before the first kernel leaves, in the matrix's buffer, the scatter of ones at the index table
    built from the two edge lists, converted to floats; stated over any contents the stretch starts from. -/
theorem after4_v30 (W : Valuation τ sig (Elt Ideal)) :
    (StableHlo.after hostOps0_4 W (Proc.devRef .tc main_v30) : S10240x10240.Idx → EReal)
      = (sitofp (F := Ideal) .bf16 (Host.scatter dS IntOp.addi
          (broadcastInDim S10240x10240 ![] Gen.bcast_S_S10240x10240 (constantI S_ 32 0#32))
          (tbl (wrap (ext (W (Proc.devRef .tc main_arg0)))) (wrap (ext (W (Proc.devRef .tc main_arg1)))))
          (broadcastInDim S330000 ![] Gen.bcast_S_S330000 (constantI S_ 32 1#32))) : S10240x10240.Idx → EReal) := by
  have hl : (hostOps0_4 : List (HloOp τ sig (Elt Ideal))) = hostOps0_4.take 23 ++ hostOps0_4.drop 23 :=
    (List.take_append_drop 23 _).symm
  rw [hl, StableHlo.after_append]
  have e26 : (StableHlo.after (hostOps0_4.take 23) W (Proc.devRef .tc main_v26) : S330000x1.Idx → BitVec 32)
      = broadcastInDim S330000x1 ![0] Gen.bcast_S330000_S330000x1_0 (wrap (ext (W (Proc.devRef .tc main_arg0)))) := by
    dsimp only [hostOps0_4, List.take_succ_cons, List.take_zero]
    open StableHlo in after_results_simp
    repeat (first
      | rw [StableHlo.nullary_result]
      | (rw [StableHlo.binary_result_ne]; rotate_left; decide)
      | (rw [StableHlo.nullary_result_ne]; rotate_left; decide))
    rfl
  have e27 : (StableHlo.after (hostOps0_4.take 23) W (Proc.devRef .tc main_v27) : S330000x1.Idx → BitVec 32)
      = broadcastInDim S330000x1 ![0] Gen.bcast_S330000_S330000x1_0 (wrap (ext (W (Proc.devRef .tc main_arg1)))) := by
    dsimp only [hostOps0_4, List.take_succ_cons, List.take_zero]
    open StableHlo in after_results_simp
    repeat (first
      | rw [StableHlo.nullary_result]
      | (rw [StableHlo.binary_result_ne]; rotate_left; decide)
      | (rw [StableHlo.nullary_result_ne]; rotate_left; decide))
    rfl
  have e15 : (StableHlo.after (hostOps0_4.take 23) W (Proc.devRef .tc main_v15) : S10240x10240.Idx → BitVec 32)
      = broadcastInDim S10240x10240 ![] Gen.bcast_S_S10240x10240 (constantI S_ 32 0#32) := by
    dsimp only [hostOps0_4, List.take_succ_cons, List.take_zero]
    open StableHlo in after_results_simp
  have e14 : (StableHlo.after (hostOps0_4.take 23) W (Proc.devRef .tc main_v14) : S330000.Idx → BitVec 32)
      = broadcastInDim S330000 ![] Gen.bcast_S_S330000 (constantI S_ 32 1#32) := by
    dsimp only [hostOps0_4, List.take_succ_cons, List.take_zero]
    open StableHlo in after_results_simp
  generalize StableHlo.after (hostOps0_4.take 23) W = W' at e26 e27 e15 e14 ⊢
  show StableHlo.after [_, _, _, _] W' (Proc.devRef .tc main_v30) = _
  open StableHlo in after_results_simp
  rw [e26, e27, e15, e14]
  rfl

variable (m : (ℓ : Loc nD τ sig) → Buf (Elt Ideal) ℓ) (c : Dev nD)

/-- No earlier host stretch writes the first edge list. -/
theorem V4_main_arg0 : V4 m c main_arg0 = m ((c : Thread nD τ).loc main_arg0) :=
  (V4_of m c main_arg0 (by decide)).trans <| (V3_of m c main_arg0 (by decide)).trans <|
    (V2_of m c main_arg0 (by decide)).trans <| (V1_of m c main_arg0 (by decide)).trans rfl
/-- No earlier host stretch writes the second edge list. -/
theorem V4_main_arg1 : V4 m c main_arg1 = m ((c : Thread nD τ).loc main_arg1) :=
  (V4_of m c main_arg1 (by decide)).trans <| (V3_of m c main_arg1 (by decide)).trans <|
    (V2_of m c main_arg1 (by decide)).trans <| (V1_of m c main_arg1 (by decide)).trans rfl

/-- An integer array converted to floats reads, at an index, the word there as a signed integer. -/
theorem sitofp_ideal_apply {s : Shape} {φ : FTy} {w : ℕ} (x : IVec s w) (i : s.Idx) :
    (sitofp (F := Ideal) φ x : s.Idx → EReal) i = (((x i).toInt : ℝ) : EReal) := rfl

/-- The matrix the first kernel reads holds, at row `i` and column `k`, the number of edges from `k` into `i`, plus one on
    the diagonal of the first 10000 nodes. -/
theorem V5_adj
    (hrow : ∀ e, ((m ((c : Thread nD τ).loc main_arg0) : S320000.Idx → BitVec 32) e).toNat < 10000)
    (hcol : ∀ e, ((m ((c : Thread nD τ).loc main_arg1) : S320000.Idx → BitVec 32) e).toNat < 10000) (i k : Fin 10240) :
    (V5 m c main_v30 : S10240x10240.Idx → EReal) (ValueIdx.ix2 i k) =
      ((Cert.Spec.adj (m ((c : Thread nD τ).loc main_arg0)) (m ((c : Thread nD τ).loc main_arg1)) i.val k.val : ℝ) : EReal) := by
  show (StableHlo.after hostOps0_4 (V4 m c) (Proc.devRef .tc main_v30) : S10240x10240.Idx → EReal) (ix2 i k) = _
  rw [after4_v30 (V4 m c), sitofp_ideal_apply,
    show V4 m c (Proc.devRef .tc main_arg0) = m ((c : Thread nD τ).loc main_arg0) from V4_main_arg0 m c,
    show V4 m c (Proc.devRef .tc main_arg1) = m ((c : Thread nD τ).loc main_arg1) from V4_main_arg1 m c,
    scatter_addi_ones dS _ _ (broadcastInDim S330000 ![] Gen.bcast_S_S330000 (constantI S_ 32 1#32)) (fun _ => rfl)]
  have hc := count_eq_adj _ _ hrow hcol i k
  have hle : Cert.Spec.adj (m ((c : Thread nD τ).loc main_arg0)) (m ((c : Thread nD τ).loc main_arg1)) i.val k.val ≤ 330000 := by
    rw [← hc]; exact card_idx1_le 330000 _
  rw [hc]
  generalize Cert.Spec.adj (m ((c : Thread nD τ).loc main_arg0)) (m ((c : Thread nD τ).loc main_arg1)) i.val k.val = A at hle ⊢
  have h0 : (broadcastInDim S10240x10240 ![] Gen.bcast_S_S10240x10240 (constantI S_ 32 0#32) : S10240x10240.Idx → BitVec 32) (ix2 i k) = 0#32 := rfl
  have hm : (BitVec.ofNat 32 A).toNat = A := by
    rw [BitVec.toNat_ofNat]; exact Nat.mod_eq_of_lt (by omega)
  rw [h0, BitVec.zero_add, BitVec.toInt_eq_toNat_of_lt (by rw [hm]; omega), hm, Int.cast_natCast]

end Cert.KernelIdeal.AdjValue

end
-- ==== Proof.SpecMath.lean ====
/-
  The kernel's arrangement of the graph-convolution layer equals the reference arrangement, over the extended reals,
  when the features, weights and bias are real-valued and every edge endpoint is a node.

  The normalisation (1 + in-degree)^(-1/2) is a finite real, so every scaled activation is a real. The kernel's
  padded activations agree with the reference's on the first 10000 nodes and vanish beyond them. The dense
  matrix-vector product then splits into the edge-count part and the unit diagonal; the edge-count part regroups,
  by exchanging the sums over nodes and over edges, into the sum of the messages along the edges into the node.
-/
import proofs.«430833_j68839735821095_2_alg».proof.Proof.Spec
import Mathlib.Data.EReal.Basic
import Mathlib.Data.EReal.Operations
import Mathlib.Algebra.BigOperators.Ring.Finset
import Mathlib.Tactic.Ring
import Mathlib.Tactic.Positivity
import Mathlib.Tactic.NormNum

noncomputable section

namespace Cert.Spec

open Idealize.ShloMosaic Idealize.ShloMosaic.ValueIdx

/-- The coercion of the reals into the extended reals commutes with finite sums. -/
theorem coe_finsum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

variable (row col : SEdges.Idx → BitVec 32) (X : SFeat.Idx → EReal) (W : SWeight.Idx → EReal) (b : SBias.Idx → EReal)

/-- The normalisation of a node is the real number (√(1 + in-degree))⁻¹. -/
theorem dinv_coe (n : ℕ) : dinv col n = (((Real.sqrt (1 + (inDeg col n : ℝ)))⁻¹ : ℝ) : EReal) := by
  have h : (0 : ℝ) < 1 + (inDeg col n : ℝ) := by positivity
  unfold dinv
  rw [Ideal.rsqrt_coe, if_neg (not_lt.mpr h.le), if_neg h.ne']

/-- The linear layer of real-valued inputs is real-valued. -/
theorem lin_real (hX : ∀ i, ∃ x : ℝ, X i = (x : EReal)) (hW : ∀ i, ∃ x : ℝ, W i = (x : EReal))
    (hb : ∀ i, ∃ x : ℝ, b i = (x : EReal)) (n : Fin 10000) (j : Fin 256) :
    ∃ r : ℝ, lin X W b n j = (r : EReal) := by
  choose x hx using hX
  choose w hw using hW
  choose c hc using hb
  refine ⟨(∑ d : Fin 256, x (ix2 n d) * w (ix2 d j)) + c (ix1 j), ?_⟩
  unfold lin
  rw [EReal.coe_add, coe_finsum]
  simp only [hx, hw, hc, EReal.coe_mul]

/-- The right-scaled activations of real-valued inputs are real-valued. -/
theorem scaled_real (hX : ∀ i, ∃ x : ℝ, X i = (x : EReal)) (hW : ∀ i, ∃ x : ℝ, W i = (x : EReal))
    (hb : ∀ i, ∃ x : ℝ, b i = (x : EReal)) (n : ℕ) (j : Fin 256) :
    ∃ r : ℝ, scaled col X W b n j = (r : EReal) := by
  unfold scaled
  by_cases h : n < 10000
  · rw [dif_pos h]
    obtain ⟨r, hr⟩ := lin_real X W b hX hW hb ⟨n, h⟩ j
    exact ⟨r * (Real.sqrt (1 + (inDeg col n : ℝ)))⁻¹, by rw [hr, dinv_coe, ← EReal.coe_mul]⟩
  · rw [dif_neg h]
    exact ⟨0, by simp⟩

/-- The kernel's padded activations are the reference's: equal on the first 10000 nodes, zero beyond. -/
theorem kscaled_eq_scaled (k : Fin 10240) (j : Fin 256) :
    kscaled col X W b k j = scaled col X W b k.val j := by
  unfold kscaled scaled
  by_cases h : k.val < 10000
  · rw [dif_pos h]
    unfold lin dpad xpad
    rw [if_pos h]
    simp only [dif_pos h]
  · rw [dif_neg h]
    unfold dpad
    rw [if_neg h, mul_zero]

/-- The real identity: the row of the dense adjacency against a vector `s` is the sum of `s` over the sources of the
    edges into the node, plus the diagonal term. -/
theorem adj_row_sum (hcol : ∀ e, (col e).toNat < 10000) (p : Fin 10000) (s : ℕ → ℝ) :
    ∑ k : Fin 10240, ((adj row col p.val k.val : ℕ) : ℝ) * s k.val
      = (∑ e : SEdges.Idx, if (row e).toNat = p.val then s (col e).toNat else 0) + s p.val := by
  have hp : p.val < 10000 := p.isLt
  unfold adj
  simp only [Nat.cast_add, add_mul, Finset.sum_add_distrib]
  refine congrArg₂ (· + ·) ?_ ?_
  · -- the edge counts: a count is a sum of indicator ones; exchange the sums over nodes and over edges
    simp only [Finset.card_filter, Nat.cast_sum, Finset.sum_mul]
    rw [Finset.sum_comm]
    refine Finset.sum_congr rfl fun e _ => ?_
    rw [Finset.sum_eq_single (⟨(col e).toNat, by have := hcol e; omega⟩ : Fin 10240)]
    · by_cases h : (row e).toNat = p.val <;> simp [h]
    · intro k _ hk
      have hne : ¬ ((row e).toNat = p.val ∧ (col e).toNat = k.val) := by
        rintro ⟨_, h2⟩
        exact hk (Fin.ext h2.symm)
      simp [hne]
    · intro h
      exact absurd (Finset.mem_univ _) h
  · -- the unit diagonal picks out the node itself
    rw [Finset.sum_eq_single (⟨p.val, by omega⟩ : Fin 10240)]
    · simp [hp]
    · intro k _ hk
      have hne : ¬ (p.val = k.val ∧ p.val < 10000) := by
        rintro ⟨h1, _⟩
        exact hk (Fin.ext h1.symm)
      rw [if_neg hne, Nat.cast_zero, zero_mul]
    · intro h
      exact absurd (Finset.mem_univ _) h

theorem kernelOut_eq_layerAt
    (hX : ∀ i, ∃ x : ℝ, X i = (x : EReal)) (hW : ∀ i, ∃ x : ℝ, W i = (x : EReal)) (hb : ∀ i, ∃ x : ℝ, b i = (x : EReal))
    (hrow : ∀ e, (row e).toNat < 10000) (hcol : ∀ e, (col e).toNat < 10000)
    (p : Fin 10000) (q : Fin 256) : kernelOut row col X W b p q = layerAt row col X W b p q := by
  have hp : p.val < 10000 := p.isLt
  choose s hs using fun n => scaled_real col X W b hX hW hb n q
  have hd : dpad col ⟨p.val, by omega⟩ = dinv col p.val := by
    unfold dpad
    rw [if_pos hp]
  have h1 : ∀ e : SEdges.Idx,
      (if (row e).toNat = p.val then ((s (col e).toNat : ℝ) : EReal) else 0)
        = (((if (row e).toNat = p.val then s (col e).toNat else 0 : ℝ)) : EReal) := by
    intro e
    split_ifs <;> simp
  unfold kernelOut layerAt
  rw [hd]
  refine congrArg (· * dinv col p.val) ?_
  simp only [kscaled_eq_scaled, hs, h1, ← EReal.coe_mul, ← coe_finsum, ← EReal.coe_add]
  rw [adj_row_sum row col hcol p s]

end Cert.Spec

end
-- ==== Proof.KIValue.lean ====
/-
  The idealized kernel program's result is the layer. The last valuation's result buffer is the first 10000 rows of
  region 1's output array; that array is, index by index, the product of the adjacency counts with region 0's output
  array, scaled by the padded normalisation; region 0's array is the right-scaled linear layer of the padded
  features; and the host operations before the regions build exactly the counts, the zero-padded features and the
  zero-padded normalisation of the specification. So the result at (p, q) is the specification's `kernelOut`, which
  regroups into the layer where every edge index names a node and every input is a finite real.
-/
import proofs.«430833_j68839735821095_2_alg».proof.Proof.KIRun
import proofs.«430833_j68839735821095_2_alg».proof.Proof.KIVal0
import proofs.«430833_j68839735821095_2_alg».proof.Proof.KIVal1
import proofs.«430833_j68839735821095_2_alg».proof.Proof.KIHost
import proofs.«430833_j68839735821095_2_alg».proof.Proof.KIAdj
import proofs.«430833_j68839735821095_2_alg».proof.Proof.SpecMath

noncomputable section

namespace Cert.KernelIdeal.Result

open Cert.KernelIdeal Cert.KernelIdeal.Gen Cert.KernelIdeal.Reg
open Idealize.ShloMosaic Idealize.ShloMosaic.TcCoe Idealize.ShloMosaic.ValueIdx Idealize.SL.Sem

variable (m : (ℓ : Loc nD τ sig) → Buf (Elt Ideal) ℓ) (c : Dev nD)

/-- The five inputs as launched on core `c`. -/
abbrev rowOf : Cert.Spec.SEdges.Idx → BitVec 32 := m ((c : Thread nD τ).loc main_arg0)
abbrev colOf : Cert.Spec.SEdges.Idx → BitVec 32 := m ((c : Thread nD τ).loc main_arg1)
abbrev featOf : Cert.Spec.SFeat.Idx → EReal := m ((c : Thread nD τ).loc main_arg2)
abbrev weightOf : Cert.Spec.SWeight.Idx → EReal := m ((c : Thread nD τ).loc main_arg3)
abbrev biasOf : Cert.Spec.SBias.Idx → EReal := m ((c : Thread nD τ).loc main_arg4)

/-- Region 0's output array, as region 1 finds it, is the specification's padded scaled activations. -/
theorem scaled_at (k : Fin 10240) (q : Fin 256) :
    (E1 m c main_v32 : S10240x256.Idx → EReal) (ix2 k q)
      = Cert.Spec.kscaled (colOf m c) (featOf m c) (weightOf m c) (biasOf m c) k q := by
  rw [show E1 m c main_v32 = (dat0 (F := Ideal) (E0 m) c).arrAt 4 cfg0.N from (hF0 m c 4).symm]
  rw [Val0.arr0_apply (E0 m) c k q]
  unfold Val0.lin0At Cert.Spec.kscaled
  dsimp only [E0]
  simp only [HostValue.V5_xpad m c, HostValue.V5_weight m c, HostValue.V5_dpad m c, HostValue.V5_bias m c]

/-- The result buffer at (p, q) is the specification's `kernelOut`. -/
theorem result_at (hrow : ∀ e, (rowOf m c e).toNat < 10000) (hcol : ∀ e, (colOf m c e).toNat < 10000) (p : Fin 10000) (q : Fin 256) :
    (V8 m (outs m) c main_v34 : S10000x256.Idx → EReal) (ix2 p q)
      = Cert.Spec.kernelOut (rowOf m c) (colOf m c) (featOf m c) (weightOf m c) (biasOf m c) p q := by
  have hp : p.val < 10240 := by omega
  rw [HostValue.V8_slice m c (outs m) p q]
  rw [show V7 m (outs m) c main_v33 = (dat1 (F := Ideal) (E1 m) c).arrAt 3 cfg1.N from (hF1 m c 3).symm]
  rw [Val1.arr1_apply (E1 m) c ⟨p.val, hp⟩ q]
  unfold Val1.spmmAt Cert.Spec.kernelOut
  rw [show E1 m c main_v9 = V5 m c main_v9 from V6_of m (outs m) c main_v9 (by decide),
    show E1 m c main_v30 = V5 m c main_v30 from V6_of m (outs m) c main_v30 (by decide)]
  simp only [AdjValue.V5_adj m c hrow hcol, scaled_at m c, HostValue.V5_dpad m c]

/-- The result buffer is the layer of the launched inputs. -/
theorem result_eq (hX : ∀ i, ∃ x : ℝ, featOf m c i = (x : EReal)) (hW : ∀ i, ∃ x : ℝ, weightOf m c i = (x : EReal))
    (hb : ∀ i, ∃ x : ℝ, biasOf m c i = (x : EReal))
    (hrow : ∀ e, (rowOf m c e).toNat < 10000) (hcol : ∀ e, (colOf m c e).toNat < 10000) :
    (V8 m (outs m) c main_v34 : S10000x256.Idx → EReal)
      = Cert.Spec.layer (rowOf m c) (colOf m c) (featOf m c) (weightOf m c) (biasOf m c) := by
  funext i
  obtain ⟨p, q, rfl⟩ : ∃ (p : Fin 10000) (q : Fin 256), i = ix2 p q := ⟨i 0, i 1, eq_ix2 i⟩
  rw [result_at m c hrow hcol p q, Cert.Spec.kernelOut_eq_layerAt _ _ _ _ _ hX hW hb hrow hcol p q]
  rfl

end Cert.KernelIdeal.Result

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.RefLayer.lean ====
/-
  The reference program's result is the specification's layer.

  The program computes, from the edge lists row and col, the features X, the weights W and the bias b:
  the in-degree of every node by a scatter-add of ones along col, the normalisation (1 + degree)^(-1/2),
  the right-scaled linear layer (X W + b) * dinv, its rows gathered along col, those rows scatter-added along row,
  the self loop added and the left scaling applied.  Read at an index (p, q) every stage is the specification's term:
  a scatter-add at an index is the sum of the updates whose start index is that index, and with every edge end
  below 10000 no update is dropped, no start index is negative and the gather's clamp does nothing.
-/
import proofs.«430833_j68839735821095_2_alg».proof.Proof.Spec
import proofs.«430833_j68839735821095_2_alg».proof.Proof.Gen.ReferenceIdeal.Read
import proofs.«430833_j68839735821095_2_alg».proof.Proof.LibGatherRows
import Idealize.ShloMosaic.Lib.ValueIdx
import Idealize.ShloMosaic.Lib.IdealHost
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo

/-! ## Sums over a rank-1 index -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter's result index -/

/-- An update lands on the operand index i exactly when, on every axis, its start plus its window coordinate is i's
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have h1 := Option.some.inj h
      have h2 := congrArg (fun f => (f a).val) h1
      simp only at h2
      have := hh a
      omega
    · cases h
  · intro h
    have hh : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hh]
    congr 1
    funext a
    apply Fin.ext
    simp only
    rw [h a]
    simp

/-- The degree scatter (operand 10000, one start index per edge, no window): edge e lands on node n exactly when
    its start index, read signed, is n. -/
theorem resultIdx_deg (idx : IVec S320000x1 32) (e : Fin 320000) (n : Fin 10000) :
    scatter_S10000_S320000x1_S320000_n_0_0_1.resultIdx? (ix1 e) idx = some (ix1 n) ↔ (idx (ix2 e (0 : Fin 1))).toInt = (n.val : Int) := by
  have hstart : scatter_S10000_S320000x1_S320000_n_0_0_1.start (ix1 e) idx 0 = (idx (ix2 e (0 : Fin 1))).toInt := by
    unfold ScatterDims.start
    rw [dif_pos (show (0 : Fin 1) ∈ scatter_S10000_S320000x1_S320000_n_0_0_1.scatterDimsToOperandDims from List.mem_singleton.mpr rfl)]
    have hsi : scatter_S10000_S320000x1_S320000_n_0_0_1.siIdx (ix1 e)
        ⟨List.idxOf (0 : Fin 1) scatter_S10000_S320000x1_S320000_n_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : scatter_S10000_S320000x1_S320000_n_0_0_1.window (ix1 e) 0 = 0 := by
    unfold ScatterDims.window
    rw [dif_neg (by decide)]
  rw [resultIdx?_eq_some_iff]
  constructor
  · intro h
    have h0 : scatter_S10000_S320000x1_S320000_n_0_0_1.start (ix1 e) idx 0 + (scatter_S10000_S320000x1_S320000_n_0_0_1.window (ix1 e) 0 : Int) = (n.val : Int) := h 0
    rw [hstart, hwin] at h0
    simpa using h0
  · intro h a
    obtain rfl : a = 0 := Subsingleton.elim _ _
    show scatter_S10000_S320000x1_S320000_n_0_0_1.start (ix1 e) idx 0 + (scatter_S10000_S320000x1_S320000_n_0_0_1.window (ix1 e) 0 : Int) = (n.val : Int)
    rw [hstart, hwin, h]
    simp

/-- The message scatter (operand 10000 x 256, one start index per edge, whole rows as windows): the update (e, c)
    lands on (n, c') exactly when the start index of e, read signed, is n and c = c'. -/
theorem resultIdx_msg (idx : IVec S320000x1 32) (e : Fin 320000) (c : Fin 256) (n : Fin 10000) (c' : Fin 256) :
    scatter_S10000x256_S320000x1_S320000x256_1_0_0_1.resultIdx? (ix2 e c) idx = some (ix2 n c') ↔ (idx (ix2 e (0 : Fin 1))).toInt = (n.val : Int) ∧ c = c' := by
  have hstart0 : scatter_S10000x256_S320000x1_S320000x256_1_0_0_1.start (ix2 e c) idx 0 = (idx (ix2 e (0 : Fin 1))).toInt := by
    unfold ScatterDims.start
    rw [dif_pos (show (0 : Fin 2) ∈ scatter_S10000x256_S320000x1_S320000x256_1_0_0_1.scatterDimsToOperandDims from List.mem_singleton.mpr rfl)]
    have hsi : scatter_S10000x256_S320000x1_S320000x256_1_0_0_1.siIdx (ix2 e c)
        ⟨List.idxOf (0 : Fin 2) scatter_S10000x256_S320000x1_S320000x256_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hstart1 : scatter_S10000x256_S320000x1_S320000x256_1_0_0_1.start (ix2 e c) idx 1 = 0 := by
    unfold ScatterDims.start
    rw [dif_neg (by decide)]
  have hwin0 : scatter_S10000x256_S320000x1_S320000x256_1_0_0_1.window (ix2 e c) 0 = 0 := by
    unfold ScatterDims.window
    rw [dif_neg (by decide)]
  have hwin1 : scatter_S10000x256_S320000x1_S320000x256_1_0_0_1.window (ix2 e c) 1 = c.val := by
    unfold ScatterDims.window
    rw [dif_pos (by decide)]
    rfl
  rw [resultIdx?_eq_some_iff]
  constructor
  · intro h
    have h0 : scatter_S10000x256_S320000x1_S320000x256_1_0_0_1.start (ix2 e c) idx 0 + (scatter_S10000x256_S320000x1_S320000x256_1_0_0_1.window (ix2 e c) 0 : Int) = (n.val : Int) := h 0
    have h1 : scatter_S10000x256_S320000x1_S320000x256_1_0_0_1.start (ix2 e c) idx 1 + (scatter_S10000x256_S320000x1_S320000x256_1_0_0_1.window (ix2 e c) 1 : Int) = (c'.val : Int) := h 1
    rw [hstart0, hwin0] at h0
    rw [hstart1, hwin1] at h1
    refine ⟨by simpa using h0, Fin.ext ?_⟩
    have h2 : (c.val : Int) = (c'.val : Int) := by simpa using h1
    exact_mod_cast h2
  · rintro ⟨h0, rfl⟩ a
    match a with
    | ⟨0, _⟩ =>
      show scatter_S10000x256_S320000x1_S320000x256_1_0_0_1.start (ix2 e c) idx 0 + (scatter_S10000x256_S320000x1_S320000x256_1_0_0_1.window (ix2 e c) 0 : Int) = (n.val : Int)
      rw [hstart0, hwin0, h0]; simp
    | ⟨1, _⟩ =>
      show scatter_S10000x256_S320000x1_S320000x256_1_0_0_1.start (ix2 e c) idx 1 + (scatter_S10000x256_S320000x1_S320000x256_1_0_0_1.window (ix2 e c) 1 : Int) = (c.val : Int)
      rw [hstart1, hwin1]; simp

/-- The host's accumulating scatter at an index, over the extended reals: the operand's element plus the sum of the
    updates that land on it. -/
theorem scatterAdd_apply {s si su : Shape} (d : ScatterDims s si su) {w : Nat} {φ : FTy} (x : FVec Ideal s φ)
    (idx : IVec si w) (upd : FVec Ideal su φ) (i : s.Idx) :
    Host.scatterAdd d x idx upd i = x i + ∑ j ∈ Finset.univ.filter (fun j => d.resultIdx? j idx = some i), upd j := rfl

/-! ## The stages at an index -/

/-- A word below 10000 read signed is its value. -/
theorem toInt_of_lt {a : BitVec 32} (h : a.toNat < 10000) : a.toInt = (a.toNat : Int) :=
  Predicate.toInt_eq_toNat_of_lt (by omega)

section Stages

variable (x0 x1 : (⟨S320000, .i32⟩ : BufTy).Contents (Elt Ideal)) (x2 : (⟨S10000x256, .f32⟩ : BufTy).Contents (Elt Ideal))
  (x3 : (⟨S256x256, .f32⟩ : BufTy).Contents (Elt Ideal)) (x4 : (⟨S256, .f32⟩ : BufTy).Contents (Elt Ideal))

/-- The degree stage: the scatter-add of ones along col, from zero, is the in-degree. -/
theorem deg_apply (hcol : ∀ e, (x1 e).toNat < 10000) (n : Fin 10000) :
    val_main_v3 (F := Ideal) x1 (ix1 n) = ((Cert.Spec.inDeg x1 n.val : ℕ) : EReal) := by
  refine (scatterAdd_apply scatter_S10000_S320000x1_S320000_n_0_0_1 (val_main_v1 (F := Ideal)) (val_main_v2 (F := Ideal) x1)
    (val_main_v0 (F := Ideal)) (ix1 n)).trans ?_
  rw [val_main_v1_apply, val_main_cst_0_apply, Ideal.ofBits_def, Ideal.ofBits_zero_f32, zero_add]
  have hfilter : (Finset.univ.filter fun j : S320000.Idx =>
        scatter_S10000_S320000x1_S320000_n_0_0_1.resultIdx? j (val_main_v2 (F := Ideal) x1) = some (ix1 n))
      = Finset.univ.filter fun e : S320000.Idx => (x1 e).toNat = n.val := by
    ext j
    obtain ⟨e, rfl⟩ : ∃ e : Fin 320000, j = ix1 e := ⟨j 0, eq_ix1 j⟩
    simp only [Finset.mem_filter, Finset.mem_univ, true_and]
    rw [resultIdx_deg, val_main_v2_apply]
    have hj : idx_main_v2 (ix2 e (0 : Fin 1)) = ix1 e := by
      funext a; match a with | ⟨0, _⟩ => rfl
    rw [hj, toInt_of_lt (hcol _)]
    exact Int.natCast_inj
  rw [hfilter]
  rw [Finset.sum_congr rfl (fun j _ => by
    rw [val_main_v0_apply, val_main_cst_apply, Ideal.ofBits_def, Ideal.ofBits_one_f32])]
  rw [Finset.sum_const, nsmul_one]
  rfl

/-- The normalisation stage is the specification's dinv. -/
theorem dinv_apply (hcol : ∀ e, (x1 e).toNat < 10000) (n : Fin 10000) :
    val_main_v6 (F := Ideal) x1 (ix1 n) = Cert.Spec.dinv x1 n.val := by
  rw [val_main_v6_apply, val_main_v5_apply, val_main_v4_apply, val_main_cst_1_apply, deg_apply x1 hcol]
  rw [Ideal.hostUnary_rsqrt_def, Ideal.addf_def, Ideal.ofBits_def, Ideal.ofBits_one_f32]
  have h : (1 : EReal) + ((Cert.Spec.inDeg x1 n.val : ℕ) : EReal)
      = (((1 + (Cert.Spec.inDeg x1 n.val : ℝ) : ℝ)) : EReal) := by
    rw [EReal.coe_add, EReal.coe_one, EReal.coe_natCast]
  rw [h]
  rfl

/-- The right-scaled linear layer is the specification's scaled. -/
theorem scaled_apply (hcol : ∀ e, (x1 e).toNat < 10000) (n : Fin 10000) (j : Fin 256) :
    val_main_v13 (F := Ideal) x1 x2 x3 x4 (ix2 n j) = Cert.Spec.scaled x1 x2 x3 x4 n.val j := by
  rw [val_main_v13_apply, val_main_v10_apply, val_main_v7_apply, val_main_v9_apply, val_main_v8_apply,
    val_main_v12_apply, val_main_v11_apply]
  have h6 : idx_main_v11 (idx_main_v12 (ix2 n j)) = ix1 n := by
    funext a; match a with | ⟨0, _⟩ => rfl
  have h8 : idx_main_v8 (idx_main_v9 (ix2 n j)) = ix1 j := by
    funext a; match a with | ⟨0, _⟩ => rfl
  have hsum : (∑ k : Fin 256, x2 (lidx_main_v7 (ix2 n j) k) * x3 (ridx_main_v7 (ix2 n j) k))
      = ∑ d : Fin 256, x2 (ix2 n d) * x3 (ix2 d j) := by
    refine Finset.sum_congr rfl fun k _ => ?_
    have hl : lidx_main_v7 (ix2 n j) k = ix2 n k := by
      funext a; match a with | ⟨0, _⟩ => rfl | ⟨1, _⟩ => rfl
    have hr : ridx_main_v7 (ix2 n j) k = ix2 k j := by
      funext a; match a with | ⟨0, _⟩ => rfl | ⟨1, _⟩ => rfl
    rw [hl, hr]
  rw [h6, h8, dinv_apply x1 hcol, hsum]
  unfold Cert.Spec.scaled
  rw [dif_pos n.isLt]
  rfl

end Stages

/-! ## The gather, the message scatter and the result -/

section Result

variable (x0 x1 : (⟨S320000, .i32⟩ : BufTy).Contents (Elt Ideal)) (x2 : (⟨S10000x256, .f32⟩ : BufTy).Contents (Elt Ideal))
  (x3 : (⟨S256x256, .f32⟩ : BufTy).Contents (Elt Ideal)) (x4 : (⟨S256, .f32⟩ : BufTy).Contents (Elt Ideal))

/-- The start index the gather reads for edge e is col e: it is not negative, so the wrap-around select keeps it. -/
theorem start_apply (hcol : ∀ e, (x1 e).toNat < 10000) (e : Fin 320000) :
    val_main_v19 (F := Ideal) x1 (ix2 e (0 : Fin 1)) = x1 (ix1 e) := by
  rw [val_main_v19_apply, val_main_v18_apply, val_main_v15_apply, val_main_v14_apply, val_main_c_apply]
  have h19 : idx_main_v19 (ix2 e (0 : Fin 1)) = ix1 e := by
    funext a; match a with | ⟨0, _⟩ => rfl
  rw [h19]
  have hns : IntOp.cmpi .slt (x1 (ix1 e)) 0#32 = 0#1 := by
    apply eq_zero_of_ne_one
    rw [Predicate.slt_iff_toNat (by have := hcol (ix1 e); omega) (by decide)]
    simp
  rw [hns, select_zero]

/-- The gathered rows: row e of the gather is the scaled row of node col e (the clamp does nothing below 10000). -/
theorem gathered_apply (hcol : ∀ e, (x1 e).toNat < 10000) (e : Fin 320000) (q : Fin 256) :
    val_main_v20 (F := Ideal) x1 x2 x3 x4 (ix2 e q) = Cert.Spec.scaled x1 x2 x3 x4 (x1 (ix1 e)).toNat q := by
  have hg := Cert.LibGatherRows.gather_rows_apply (N := 10000) (D := 256) (R := 320000) (by norm_num)
    Facts₀.gather_S10000x256_S320000x1_S320000x256_1_0_n_n_0_1_1256_wf
    (val_main_v13 (F := Ideal) x1 x2 x3 x4) (val_main_v19 (F := Ideal) x1) e q
  have hc := hcol (ix1 e)
  have hnode : ∀ (h : min (val_main_v19 (F := Ideal) x1 (ix2 e (0 : Fin 1))).toInt.toNat (10000 - 1) < 10000),
      (⟨_, h⟩ : Fin 10000) = ⟨(x1 (ix1 e)).toNat, hc⟩ := fun h => Fin.ext (by
    simp only [start_apply x1 hcol e, toInt_of_lt hc, Int.toNat_natCast]
    omega)
  unfold val_main_v20
  refine hg.trans ?_
  rw [hnode]
  exact scaled_apply x1 x2 x3 x4 hcol ⟨_, hc⟩ q

/-- The message stage: the scatter-add of the gathered rows along row, from zero, at (p, q) is the sum over the
    edges into p of the scaled row of the edge's source, at q. -/
theorem msg_apply (hrow : ∀ e, (x0 e).toNat < 10000) (hcol : ∀ e, (x1 e).toNat < 10000) (p : Fin 10000) (q : Fin 256) :
    val_main_v23 (F := Ideal) x0 x1 x2 x3 x4 (ix2 p q)
      = ∑ e : S320000.Idx, if (x0 e).toNat = p.val then Cert.Spec.scaled x1 x2 x3 x4 (x1 e).toNat q else 0 := by
  refine (scatterAdd_apply scatter_S10000x256_S320000x1_S320000x256_1_0_0_1 (val_main_v21 (F := Ideal)) (val_main_v22 (F := Ideal) x0)
    (val_main_v20 (F := Ideal) x1 x2 x3 x4) (ix2 p q)).trans ?_
  rw [val_main_v21_apply, val_main_cst_3_apply, Ideal.ofBits_def, Ideal.ofBits_zero_f32, zero_add]
  -- the updates that land on (p, q) are the (e, q) with row e = p
  have hmem : ∀ (e : Fin 320000) (c : Fin 256),
      scatter_S10000x256_S320000x1_S320000x256_1_0_0_1.resultIdx? (ix2 e c) (val_main_v22 (F := Ideal) x0) = some (ix2 p q)
        ↔ (x0 (ix1 e)).toNat = p.val ∧ c = q := by
    intro e c
    rw [resultIdx_msg, val_main_v22_apply]
    have hj : idx_main_v22 (ix2 e (0 : Fin 1)) = ix1 e := by
      funext a; match a with | ⟨0, _⟩ => rfl
    rw [hj, toInt_of_lt (hrow _)]
    exact and_congr Int.natCast_inj Iff.rfl
  -- the sum over the updates as a sum over edges and columns; on the right the sum over edges
  rw [Finset.sum_filter, sum_idx2, sum_idx1]
  refine Finset.sum_congr rfl fun e _ => ?_
  rw [Finset.sum_congr rfl (fun c _ => if_congr (hmem e c) (gathered_apply x1 x2 x3 x4 hcol e c) rfl)]
  by_cases hA : (x0 (ix1 e)).toNat = p.val
  · rw [if_pos hA, Finset.sum_congr rfl (fun c _ => if_congr (and_iff_right hA) rfl rfl),
      Finset.sum_ite_eq' Finset.univ q, if_pos (Finset.mem_univ q)]
  · rw [if_neg hA]
    exact Finset.sum_eq_zero fun c _ => if_neg (fun h => hA h.1)

/-- The reference program's result is the specification's layer. -/
theorem ref_eq_layer (x0 x1 : (⟨S320000, .i32⟩ : BufTy).Contents (Elt Ideal)) (x2 : (⟨S10000x256, .f32⟩ : BufTy).Contents (Elt Ideal))
    (x3 : (⟨S256x256, .f32⟩ : BufTy).Contents (Elt Ideal)) (x4 : (⟨S256, .f32⟩ : BufTy).Contents (Elt Ideal))
    (hrow : ∀ e, (x0 e).toNat < 10000) (hcol : ∀ e, (x1 e).toNat < 10000) :
    Cert.ReferenceIdeal.Read.val_main_v27 (F := Ideal) x0 x1 x2 x3 x4 = Cert.Spec.layer x0 x1 x2 x3 x4 := by
  funext i
  obtain ⟨p, q, rfl⟩ : ∃ (p : Fin 10000) (q : Fin 256), i = ix2 p q := ⟨i 0, i 1, eq_ix2 i⟩
  rw [val_main_v27_apply, val_main_v24_apply, val_main_v26_apply, val_main_v25_apply]
  have h25 : idx_main_v25 (idx_main_v26 (ix2 p q)) = ix1 p := by
    funext a; match a with | ⟨0, _⟩ => rfl
  rw [h25, dinv_apply x1 hcol, msg_apply x0 x1 x2 x3 x4 hrow hcol, scaled_apply x1 x2 x3 x4 hcol]
  rfl

end Result

end Cert.ReferenceIdeal.RefValue

end
-- ==== Proof.PreFacts.lean ====
/-
  The statement's precondition, decoded: when the printed predicate is true, every entry of the features, of the
  weights and of the bias is a real number (neither infinity), and every word of the two edge lists, read unsigned,
  is below 10000.
-/
import proofs.«430833_j68839735821095_2_alg».proof.Pre_finite_inputs
import proofs.«430833_j68839735821095_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.PreFacts

open Idealize.ShloMosaic

/-- The rank-0 shape has one index. -/
instance : Subsingleton Cert.Pre_finite_inputs.S_.Idx := ⟨fun a b => funext fun d => d.elim0⟩

/-- An extended real whose absolute value max x (-x) is strictly below +∞ (the pattern 0x7F800000) is a real:
    at ⊥ the maximum is -⊥ = ⊤, at ⊤ it is ⊤, and neither is below ⊤. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- A 32-bit word that is ≥ 0 and < 10000, both read signed, is < 10000 read unsigned: its top bit is clear, so the
    two readings agree. -/
theorem toNat_lt_of_signed (w : BitVec 32) (h0 : IntOp.cmpi .sge w 0#32 = 1#1) (h1 : IntOp.cmpi .slt w 10000#32 = 1#1) :
    w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have hw := w.isLt
  rw [BitVec.toInt_eq_toNat_cond] at h0 h1
  split at h0 <;> omega

theorem of_pre [Cert.Pre_finite_inputs.Facts] (row col : IVec Cert.Pre_finite_inputs.S320000 32) (X : FVec Ideal Cert.Pre_finite_inputs.S10000x256 .f32)
    (W : FVec Ideal Cert.Pre_finite_inputs.S256x256 .f32) (b : FVec Ideal Cert.Pre_finite_inputs.S256 .f32)
    (h : Cert.Pre_finite_inputs.fn (F := Ideal) row col X W b = fun _ => 1#1) :
    (∀ i, ∃ x : ℝ, X i = (x : EReal)) ∧ (∀ i, ∃ x : ℝ, W i = (x : EReal)) ∧ (∀ i, ∃ x : ℝ, b i = (x : EReal))
      ∧ (∀ e, (row e).toNat < 10000) ∧ (∀ e, (col e).toNat < 10000) := by
  have e := congrFun h ValueIdx.ix0
  unfold Cert.Pre_finite_inputs.fn Cert.Pre_finite_inputs.fn_part1 at e
  dsimp only at e
  -- the five conjuncts of the predicate
  obtain ⟨e4, hcol⟩ := IntOp.andi_eq_one.1 e
  obtain ⟨e3, hrow⟩ := IntOp.andi_eq_one.1 e4
  obtain ⟨e2, hb⟩ := IntOp.andi_eq_one.1 e3
  obtain ⟨hX, hW⟩ := IntOp.andi_eq_one.1 e2
  refine ⟨fun i => ?_, fun i => ?_, fun i => ?_, fun i => ?_, fun i => ?_⟩
  · exact real_of_abs_lt (X i) (Host.reduce_andi_all _ _ _ _ _ hX i)
  · exact real_of_abs_lt (W i) (Host.reduce_andi_all _ _ _ _ _ hW i)
  · exact real_of_abs_lt (b i) (Host.reduce_andi_all _ _ _ _ _ hb i)
  · obtain ⟨h0, h1⟩ := IntOp.andi_eq_one.1 (Host.reduce_andi_all _ _ _ _ _ hrow i)
    exact toNat_lt_of_signed (row i) h0 h1
  · obtain ⟨h0, h1⟩ := IntOp.andi_eq_one.1 (Host.reduce_andi_all _ _ _ _ _ hcol i)
    exact toNat_lt_of_signed (col i) h0 h1

end Cert.PreFacts

end
-- ==== Proof.lean ====
/-
  The certificate's claims. The kernel program is a graph-convolution layer in two kernel regions — a linear layer
  with its right scaling, then a dense product with the adjacency counts (edges and self loops scattered into a
  10240 × 10240 matrix on the host) accumulated over five column blocks and scaled once more — and the reference
  computes the same layer by gathering the scaled activations along the edges and summing them by segment.
  Frames: both kernel programs run each region from the thread state the host operations leave, the second region
  carrying its accumulator in its invariant; the reference is a line of host operations. The two idealized programs
  agree where every edge index names a node: there the dense product with the counts regroups into the sum over the
  edges into a node plus the self loop, every quantity being a finite real.
-/
import proofs.«430833_j68839735821095_2_alg».proof.Defs
import proofs.«430833_j68839735821095_2_alg».proof.Proof.Gen.Kernel
import proofs.«430833_j68839735821095_2_alg».proof.Proof.Gen.KernelIdeal
import proofs.«430833_j68839735821095_2_alg».proof.Proof.Gen.ReferenceIdeal
import proofs.«430833_j68839735821095_2_alg».proof.Proof.Gen.Pre_finite_inputs
import proofs.«430833_j68839735821095_2_alg».proof.Proof.Gen.ReferenceIdeal.Run
import proofs.«430833_j68839735821095_2_alg».proof.Proof.Gen.ReferenceIdeal.Read
import proofs.«430833_j68839735821095_2_alg».proof.Proof.KRun
import proofs.«430833_j68839735821095_2_alg».proof.Proof.KIRun
import proofs.«430833_j68839735821095_2_alg».proof.Proof.KIValue
import proofs.«430833_j68839735821095_2_alg».proof.Proof.RefLayer
import proofs.«430833_j68839735821095_2_alg».proof.Proof.PreFacts
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Reg.frame (F := Bits) m ρ
/-- So does the idealized one. -/
theorem frame_ki : Cert.frame_KernelIdeal := fun m ρ _ => Cert.KernelIdeal.Reg.frame (F := Ideal) m ρ
/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- At the ideal instance, from memories agreeing on the arguments, both programs end with the layer of the launched
    inputs in their result buffers: the kernel program's last valuation read at its result (`Result.result_eq`), the
    reference's run read one operation at a time (`RefValue.ref_eq_layer`). The precondition gives what both need:
    finite features, weights and bias, and every edge index a node. -/
theorem algebraic : Cert.algebraic_KernelIdeal_ReferenceIdeal := by
  intro m ρ m' ρ' hpre hagree
  have hf := fun c => Cert.PreFacts.of_pre _ _ _ _ _ (hpre c)
  refine ⟨fun c => Cert.Spec.layer (Cert.KernelIdeal.Result.rowOf m c) (Cert.KernelIdeal.Result.colOf m c)
    (Cert.KernelIdeal.Result.featOf m c) (Cert.KernelIdeal.Result.weightOf m c) (Cert.KernelIdeal.Result.biasOf m c), ?_, ?_⟩
  · refine (θ_run Cert.KernelIdeal.defs _ _).mono (fun _ h c => ?_) (Cert.KernelIdeal.Reg.run_main (F := Ideal) m ρ)
    obtain ⟨hX, hW, hb, hrow, hcol⟩ := hf c
    exact ⟨(h c _ (Cert.KernelIdeal.Reg.mem_uc Cert.KernelIdeal.main_v34 (by decide))).trans
        (Cert.KernelIdeal.Result.result_eq m c hX hW hb hrow hcol),
      (h c _ (Cert.KernelIdeal.Reg.mem_uc Cert.KernelIdeal.main_arg0 (by decide))).trans (Cert.KernelIdeal.Gen.V8_main_arg0 m _ c),
      (h c _ (Cert.KernelIdeal.Reg.mem_uc Cert.KernelIdeal.main_arg1 (by decide))).trans (Cert.KernelIdeal.Gen.V8_main_arg1 m _ c),
      (h c _ (Cert.KernelIdeal.Reg.mem_uc Cert.KernelIdeal.main_arg2 (by decide))).trans (Cert.KernelIdeal.Gen.V8_main_arg2 m _ c),
      (h c _ (Cert.KernelIdeal.Reg.mem_uc Cert.KernelIdeal.main_arg3 (by decide))).trans (Cert.KernelIdeal.Gen.V8_main_arg3 m _ c),
      (h c _ (Cert.KernelIdeal.Reg.mem_uc Cert.KernelIdeal.main_arg4 (by decide))).trans (Cert.KernelIdeal.Gen.V8_main_arg4 m _ c)⟩
  · refine (θ_run Cert.ReferenceIdeal.defs _ _).mono (fun _ h c => ⟨?_, (h c).2⟩)
      (Cert.ReferenceIdeal.Value.run (F := Ideal) m' ρ')
    have ha := hagree c
    obtain ⟨hX, hW, hb, hrow, hcol⟩ := hf c
    refine (h c).1.trans ((Cert.ReferenceIdeal.Read.val_main_v27_eq _ _ _ _ _).trans ?_)
    rw [ha.1, ha.2.1, ha.2.2.1, ha.2.2.2.1, ha.2.2.2.2]
    exact Cert.ReferenceIdeal.RefValue.ref_eq_layer _ _ _ _ _ hrow hcol

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
